-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x4 : Shape := ⟨3, ![64, 300, 4]⟩
abbrev S64x2 : Shape := ⟨2, ![64, 2]⟩
abbrev S64x40x40 : Shape := ⟨3, ![64, 40, 40]⟩
abbrev S_ : Shape := ⟨0, ![]⟩

class Facts : Prop where
  bcast_S_S64x300x4 : S_.BroadcastsInDim S64x300x4 (![] : Fin 0 → Fin S64x300x4.rank)
  reducesTo_S64x300x4_S_d0_1_2 : S64x300x4.ReducesTo [0, 1, 2] S_
  h_S_ : 0 < S_.numel

variable [Facts]

def fn {F : FTy → Type} [FloatOps F] (main_arg0 : FVec F S64x300x4 .f32) (main_arg1 : FVec F S64x300x4 .f32) (main_arg2 : IVec S64x2 32) (main_arg3 : IVec S64x40x40 1) : IVec S_ 1 :=
  let main_v0 : FVec F S64x300x4 .f32 := Host.absf main_arg0
  let main_cst : FVec F S_ .f32 := constant S_ .f32 0x7F800000#32
  let main_v1 : FVec F S64x300x4 .f32 := broadcastInDim S64x300x4 ![] bcast_S_S64x300x4 main_cst
  let main_v2 : IVec S64x300x4 1 := cmpf .olt main_v0 main_v1
  let main_c : IVec S_ 1 := constantI S_ 1 1#1
  let main_v3 : IVec S_ 1 := (fun x v => Host.reduce IntOp.andi x v reducesTo_S64x300x4_S_d0_1_2 h_S_) main_v2 main_c
  let main_v4 : FVec F S64x300x4 .f32 := Host.absf main_arg1
  let main_cst_0 : FVec F S_ .f32 := constant S_ .f32 0x7F800000#32
  let main_v5 : FVec F S64x300x4 .f32 := broadcastInDim S64x300x4 ![] bcast_S_S64x300x4 main_cst_0
  let main_v6 : IVec S64x300x4 1 := cmpf .olt main_v4 main_v5
  let main_c_1 : IVec S_ 1 := constantI S_ 1 1#1
  let main_v7 : IVec S_ 1 := (fun x v => Host.reduce IntOp.andi x v reducesTo_S64x300x4_S_d0_1_2 h_S_) main_v6 main_c_1
  let main_v8 : IVec S_ 1 := andi main_v3 main_v7
  main_v8
-- ==== Kernel.lean ====
abbrev S64x300x4 : Shape := ⟨3, ![64, 300, 4]⟩
abbrev S64x2 : Shape := ⟨2, ![64, 2]⟩
abbrev S64x40x40 : Shape := ⟨3, ![64, 40, 40]⟩
abbrev S1x64x300x4 : Shape := ⟨4, ![1, 64, 300, 4]⟩
abbrev S2x64x300x4 : Shape := ⟨4, ![2, 64, 300, 4]⟩
abbrev S2x64x300x40x40 : Shape := ⟨5, ![2, 64, 300, 40, 40]⟩
abbrev S1x8x48x4 : Shape := ⟨4, ![1, 8, 48, 4]⟩
abbrev S8x2 : Shape := ⟨2, ![8, 2]⟩
abbrev S1x8x48x40x40 : Shape := ⟨5, ![1, 8, 48, 40, 40]⟩
abbrev S8x48x4 : Shape := ⟨3, ![8, 48, 4]⟩
abbrev S8x48x1 : Shape := ⟨3, ![8, 48, 1]⟩
abbrev S8x48 : Shape := ⟨2, ![8, 48]⟩
abbrev S8x1 : Shape := ⟨2, ![8, 1]⟩
abbrev S8x48x40x40 : Shape := ⟨4, ![8, 48, 40, 40]⟩
abbrev S8x48x1x1 : Shape := ⟨4, ![8, 48, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x300x4, .f32⟩
  | .hbm, ⟨1, _⟩ => ⟨S64x300x4, .f32⟩
  | .hbm, ⟨2, _⟩ => ⟨S64x2, .i32⟩
  | .hbm, ⟨3, _⟩ => ⟨S64x40x40, .i1⟩
  | .hbm, ⟨4, _⟩ => ⟨S1x64x300x4, .f32⟩
  | .hbm, ⟨5, _⟩ => ⟨S1x64x300x4, .f32⟩
  | .hbm, ⟨6, _⟩ => ⟨S2x64x300x4, .f32⟩
  | .hbm, ⟨7, _⟩ => ⟨S2x64x300x40x40, .f32⟩
  | .local _ .vmem, ⟨0, _⟩ => ⟨S1x8x48x4, .f32⟩
  | .local _ .vmem, ⟨1, _⟩ => ⟨S1x8x48x4, .f32⟩
  | .local _ .vmem, ⟨2, _⟩ => ⟨S8x2, .i32⟩
  | .local _ .vmem, ⟨3, _⟩ => ⟨S8x2, .i32⟩
  | .local _ .vmem, ⟨4, _⟩ => ⟨S1x8x48x40x40, .f32⟩
  | .local _ .vmem, ⟨5, _⟩ => ⟨S1x8x48x40x40, .f32⟩
  | _, _ => ⟨S64x300x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 7], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x8x48x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x8x48x40x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S64x300x4_S1x64x300x4_1_2_3 : S64x300x4.BroadcastsInDim S1x64x300x4 (![1, 2, 3] : Fin 3 → Fin S1x64x300x4.rank)
  concatenates_S1x64x300x4_S1x64x300x4_S2x64x300x4_d0 : Shape.Concatenates [S1x64x300x4, S1x64x300x4] S2x64x300x4 0
  inb_S1x8x48x4_S1x8x48x4_0_0_0_0 : ∀ a, (![0, 0, 0, 0] : Fin 4 → Nat) a + S1x8x48x4.size a ≤ S1x8x48x4.size a
  h_S1x8x48x4 : 0 < S1x8x48x4.numel
  shapeCasts_S1x8x48x4_S8x48x4 : S1x8x48x4.ShapeCasts S8x48x4
  slices_S8x48x4_o0_0_0_S8x48x1 : S8x48x4.Slices ![0, 0, 0] S8x48x1
  shapeCasts_S8x48x1_S8x48 : S8x48x1.ShapeCasts S8x48
  slices_S8x48x4_o0_0_1_S8x48x1 : S8x48x4.Slices ![0, 0, 1] S8x48x1
  slices_S8x48x4_o0_0_2_S8x48x1 : S8x48x4.Slices ![0, 0, 2] S8x48x1
  slices_S8x48x4_o0_0_3_S8x48x1 : S8x48x4.Slices ![0, 0, 3] S8x48x1
  inb_S8x2_S8x1_0_1 : ∀ a, (![0, 1] : Fin 2 → Nat) a + S8x1.size a ≤ S8x2.size a
  h_S8x1 : 0 < S8x1.numel
  inb_S8x2_S8x1_0_0 : ∀ a, (![0, 0] : Fin 2 → Nat) a + S8x1.size a ≤ S8x2.size a
  broadcasts_S8x1_S8x48 : S8x1.Broadcasts S8x48
  iota_S8x48x40x40_d2_w32 : S8x48x40x40.Iotas .tc 32 [2]
  iota_S8x48x40x40_d3_w32 : S8x48x40x40.Iotas .tc 32 [3]
  shapeCasts_S8x48_S8x48x1x1 : S8x48.ShapeCasts S8x48x1x1
  broadcasts_S8x48x1x1_S8x48x40x40 : S8x48x1x1.Broadcasts S8x48x40x40
  natLt_1_32 : 1 < 32
  inb_S1x8x48x40x40_S1x8x48x40x40_0_0_0_0_0 : ∀ a, (![0, 0, 0, 0, 0] : Fin 5 → Nat) a + S1x8x48x40x40.size a ≤ S1x8x48x40x40.size a
  h_S1x8x48x40x40 : 0 < S1x8x48x40x40.numel
  shapeCasts_S1x8x48x40x40_S8x48x40x40 : S1x8x48x40x40.ShapeCasts S8x48x40x40
  shapeCasts_S8x48x40x40_S1x8x48x40x40 : S8x48x40x40.ShapeCasts S1x8x48x40x40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x8x48x4.size a < S2x64x300x4.size a
  hwx0_0 : ∀ i : grid0.Coords, EltTy.bits .f32 = 32 ∨ (Rect.unit (s := S2x64x300x4) (fun a => cc0_transform_0 i a * S1x8x48x4.size a) (fun a => (Pipeline.Clip.of (cc0_transform_0 i a) (S1x8x48x4.size a) (S2x64x300x4.size a)).extent (S1x8x48x4.size a)) fun a => Pipeline.Clip.inb (Pipeline.Clip.ok_of (hstart0_0 i a))).WholeWords (EltTy.packing .f32)
  hwxs0_0 : ∀ i : grid0.Coords, EltTy.bits .f32 = 32 ∨ (Rect.unit (s := S1x8x48x4) (fun _ => 0) (fun a => (Pipeline.Clip.of (cc0_transform_0 i a) (S1x8x48x4.size a) (S2x64x300x4.size a)).extent (S1x8x48x4.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2.size a ≤ S64x2.size a
  hwx0_1 : ∀ i : grid0.Coords, EltTy.bits .i32 = 32 ∨ (Rect.block (s := S64x2) S8x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x8x48x40x40.size a < S2x64x300x40x40.size a
  hwx0_2 : ∀ i : grid0.Coords, EltTy.bits .f32 = 32 ∨ (Rect.unit (s := S2x64x300x40x40) (fun a => cc0_transform_2 i a * S1x8x48x40x40.size a) (fun a => (Pipeline.Clip.of (cc0_transform_2 i a) (S1x8x48x40x40.size a) (S2x64x300x40x40.size a)).extent (S1x8x48x40x40.size a)) fun a => Pipeline.Clip.inb (Pipeline.Clip.ok_of (hstart0_2 i a))).WholeWords (EltTy.packing .f32)
  hwxs0_2 : ∀ i : grid0.Coords, EltTy.bits .f32 = 32 ∨ (Rect.unit (s := S1x8x48x40x40) (fun _ => 0) (fun a => (Pipeline.Clip.of (cc0_transform_2 i a) (S1x8x48x40x40.size a) (S2x64x300x40x40.size a)).extent (S1x8x48x40x40.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v2) S1x8x48x4.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S8x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v3) S1x8x48x40x40.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x300x4 : Shape := ⟨3, ![64, 300, 4]⟩
abbrev S64x2 : Shape := ⟨2, ![64, 2]⟩
abbrev S64x40x40 : Shape := ⟨3, ![64, 40, 40]⟩
abbrev S64x300x1 : Shape := ⟨3, ![64, 300, 1]⟩
abbrev S64x300 : Shape := ⟨2, ![64, 300]⟩
abbrev S_ : Shape := ⟨0, ![]⟩
abbrev S64x1 : Shape := ⟨2, ![64, 1]⟩
abbrev S40 : Shape := ⟨1, ![40]⟩
abbrev S40x1 : Shape := ⟨2, ![40, 1]⟩
abbrev S1x40 : Shape := ⟨2, ![1, 40]⟩
abbrev S64x300x1x1 : Shape := ⟨4, ![64, 300, 1, 1]⟩
abbrev S1x1x40x1 : Shape := ⟨4, ![1, 1, 40, 1]⟩
abbrev S64x300x40x1 : Shape := ⟨4, ![64, 300, 40, 1]⟩
abbrev S1x1x1x40 : Shape := ⟨4, ![1, 1, 1, 40]⟩
abbrev S64x300x1x40 : Shape := ⟨4, ![64, 300, 1, 40]⟩
abbrev S64x300x40x40 : Shape := ⟨4, ![64, 300, 40, 40]⟩
abbrev S1x64x300x40x40 : Shape := ⟨5, ![1, 64, 300, 40, 40]⟩
abbrev S2x64x300x40x40 : Shape := ⟨5, ![2, 64, 300, 40, 40]⟩

abbrev nBuf : Space → Nat
  | .hbm => 192
  | .vmem => 0
  | .smem => 0
  | _ => 0

abbrev hbmTy0_0 (i : Nat) : BufTy := match i % 128 with
  | 0 => ⟨S64x300x4, .f32⟩
  | 1 => ⟨S64x300x4, .f32⟩
  | 2 => ⟨S64x2, .i32⟩
  | 3 => ⟨S64x40x40, .i1⟩
  | 4 => ⟨S64x300x1, .f32⟩
  | 5 => ⟨S64x300, .f32⟩
  | 6 => ⟨S64x300x1, .f32⟩
  | 7 => ⟨S64x300, .f32⟩
  | 8 => ⟨S64x300x1, .f32⟩
  | 9 => ⟨S64x300, .f32⟩
  | 10 => ⟨S64x300x1, .f32⟩
  | 11 => ⟨S64x300, .f32⟩
  | 12 => ⟨S_, .f32⟩
  | 13 => ⟨S64x300, .f32⟩
  | 14 => ⟨S64x300, .f32⟩
  | 15 => ⟨S64x300, .f32⟩
  | 16 => ⟨S_, .f32⟩
  | 17 => ⟨S64x300, .f32⟩
  | 18 => ⟨S64x300, .f32⟩
  | 19 => ⟨S64x300, .f32⟩
  | 20 => ⟨S_, .f32⟩
  | 21 => ⟨S64x300, .f32⟩
  | 22 => ⟨S64x300, .f32⟩
  | 23 => ⟨S64x300, .f32⟩
  | 24 => ⟨S_, .f32⟩
  | 25 => ⟨S64x300, .f32⟩
  | 26 => ⟨S64x300, .f32⟩
  | 27 => ⟨S64x300, .f32⟩
  | 28 => ⟨S64x1, .i32⟩
  | 29 => ⟨S64x1, .f32⟩
  | 30 => ⟨S64x1, .i32⟩
  | 31 => ⟨S64x1, .f32⟩
  | 32 => ⟨S64x300, .f32⟩
  | 33 => ⟨S64x300, .f32⟩
  | 34 => ⟨S_, .f32⟩
  | 35 => ⟨S64x300, .f32⟩
  | 36 => ⟨S64x300, .f32⟩
  | 37 => ⟨S64x300, .f32⟩
  | 38 => ⟨S64x300, .i32⟩
  | 39 => ⟨S64x300, .f32⟩
  | 40 => ⟨S64x300, .f32⟩
  | 41 => ⟨S_, .f32⟩
  | 42 => ⟨S64x300, .f32⟩
  | 43 => ⟨S64x300, .f32⟩
  | 44 => ⟨S64x300, .f32⟩
  | 45 => ⟨S64x300, .i32⟩
  | 46 => ⟨S64x300, .f32⟩
  | 47 => ⟨S64x300, .f32⟩
  | 48 => ⟨S_, .f32⟩
  | 49 => ⟨S64x300, .f32⟩
  | 50 => ⟨S64x300, .f32⟩
  | 51 => ⟨S64x300, .f32⟩
  | 52 => ⟨S64x300, .i32⟩
  | 53 => ⟨S64x300, .f32⟩
  | 54 => ⟨S64x300, .f32⟩
  | 55 => ⟨S_, .f32⟩
  | 56 => ⟨S64x300, .f32⟩
  | 57 => ⟨S64x300, .f32⟩
  | 58 => ⟨S64x300, .f32⟩
  | 59 => ⟨S64x300, .i32⟩
  | 60 => ⟨S_, .i32⟩
  | 61 => ⟨S64x300, .i32⟩
  | 62 => ⟨S64x300, .i32⟩
  | 63 => ⟨S_, .i32⟩
  | 64 => ⟨S64x300, .i32⟩
  | 65 => ⟨S64x300, .i32⟩
  | 66 => ⟨S40, .i32⟩
  | 67 => ⟨S40x1, .i32⟩
  | 68 => ⟨S40, .i32⟩
  | 69 => ⟨S1x40, .i32⟩
  | 70 => ⟨S64x300x1x1, .i32⟩
  | 71 => ⟨S1x1x40x1, .i32⟩
  | 72 => ⟨S64x300x40x1, .i32⟩
  | 73 => ⟨S64x300x40x1, .i32⟩
  | 74 => ⟨S64x300x40x1, .i1⟩
  | 75 => ⟨S64x300x1x1, .i32⟩
  | 76 => ⟨S1x1x40x1, .i32⟩
  | 77 => ⟨S64x300x40x1, .i32⟩
  | 78 => ⟨S64x300x40x1, .i32⟩
  | 79 => ⟨S64x300x40x1, .i1⟩
  | 80 => ⟨S64x300x40x1, .i1⟩
  | 81 => ⟨S64x300x1x1, .i32⟩
  | 82 => ⟨S1x1x1x40, .i32⟩
  | 83 => ⟨S64x300x1x40, .i32⟩
  | 84 => ⟨S64x300x1x40, .i32⟩
  | 85 => ⟨S64x300x1x40, .i1⟩
  | 86 => ⟨S64x300x40x40, .i1⟩
  | 87 => ⟨S64x300x40x40, .i1⟩
  | 88 => ⟨S64x300x40x40, .i1⟩
  | 89 => ⟨S64x300x1x1, .i32⟩
  | 90 => ⟨S1x1x1x40, .i32⟩
  | 91 => ⟨S64x300x1x40, .i32⟩
  | 92 => ⟨S64x300x1x40, .i32⟩
  | 93 => ⟨S64x300x1x40, .i1⟩
  | 94 => ⟨S64x300x40x40, .i1⟩
  | 95 => ⟨S64x300x40x40, .i1⟩
  | 96 => ⟨S64x300x1, .f32⟩
  | 97 => ⟨S64x300, .f32⟩
  | 98 => ⟨S64x300x1, .f32⟩
  | 99 => ⟨S64x300, .f32⟩
  | 100 => ⟨S64x300x1, .f32⟩
  | 101 => ⟨S64x300, .f32⟩
  | 102 => ⟨S64x300x1, .f32⟩
  | 103 => ⟨S64x300, .f32⟩
  | 104 => ⟨S_, .f32⟩
  | 105 => ⟨S64x300, .f32⟩
  | 106 => ⟨S64x300, .f32⟩
  | 107 => ⟨S64x300, .f32⟩
  | 108 => ⟨S_, .f32⟩
  | 109 => ⟨S64x300, .f32⟩
  | 110 => ⟨S64x300, .f32⟩
  | 111 => ⟨S64x300, .f32⟩
  | 112 => ⟨S_, .f32⟩
  | 113 => ⟨S64x300, .f32⟩
  | 114 => ⟨S64x300, .f32⟩
  | 115 => ⟨S64x300, .f32⟩
  | 116 => ⟨S_, .f32⟩
  | 117 => ⟨S64x300, .f32⟩
  | 118 => ⟨S64x300, .f32⟩
  | 119 => ⟨S64x300, .f32⟩
  | 120 => ⟨S64x1, .i32⟩
  | 121 => ⟨S64x1, .f32⟩
  | 122 => ⟨S64x1, .i32⟩
  | 123 => ⟨S64x1, .f32⟩
  | 124 => ⟨S64x300, .f32⟩
  | 125 => ⟨S64x300, .f32⟩
  | 126 => ⟨S_, .f32⟩
  | 127 => ⟨S64x300, .f32⟩
  | _ => ⟨S64x300x4, .f32⟩

abbrev hbmTy0_1 (i : Nat) : BufTy := match i % 128 with
  | 0 => ⟨S64x300, .f32⟩
  | 1 => ⟨S64x300, .f32⟩
  | 2 => ⟨S64x300, .i32⟩
  | 3 => ⟨S64x300, .f32⟩
  | 4 => ⟨S64x300, .f32⟩
  | 5 => ⟨S_, .f32⟩
  | 6 => ⟨S64x300, .f32⟩
  | 7 => ⟨S64x300, .f32⟩
  | 8 => ⟨S64x300, .f32⟩
  | 9 => ⟨S64x300, .i32⟩
  | 10 => ⟨S64x300, .f32⟩
  | 11 => ⟨S64x300, .f32⟩
  | 12 => ⟨S_, .f32⟩
  | 13 => ⟨S64x300, .f32⟩
  | 14 => ⟨S64x300, .f32⟩
  | 15 => ⟨S64x300, .f32⟩
  | 16 => ⟨S64x300, .i32⟩
  | 17 => ⟨S64x300, .f32⟩
  | 18 => ⟨S64x300, .f32⟩
  | 19 => ⟨S_, .f32⟩
  | 20 => ⟨S64x300, .f32⟩
  | 21 => ⟨S64x300, .f32⟩
  | 22 => ⟨S64x300, .f32⟩
  | 23 => ⟨S64x300, .i32⟩
  | 24 => ⟨S_, .i32⟩
  | 25 => ⟨S64x300, .i32⟩
  | 26 => ⟨S64x300, .i32⟩
  | 27 => ⟨S_, .i32⟩
  | 28 => ⟨S64x300, .i32⟩
  | 29 => ⟨S64x300, .i32⟩
  | 30 => ⟨S40, .i32⟩
  | 31 => ⟨S40x1, .i32⟩
  | 32 => ⟨S40, .i32⟩
  | 33 => ⟨S1x40, .i32⟩
  | 34 => ⟨S64x300x1x1, .i32⟩
  | 35 => ⟨S1x1x40x1, .i32⟩
  | 36 => ⟨S64x300x40x1, .i32⟩
  | 37 => ⟨S64x300x40x1, .i32⟩
  | 38 => ⟨S64x300x40x1, .i1⟩
  | 39 => ⟨S64x300x1x1, .i32⟩
  | 40 => ⟨S1x1x40x1, .i32⟩
  | 41 => ⟨S64x300x40x1, .i32⟩
  | 42 => ⟨S64x300x40x1, .i32⟩
  | 43 => ⟨S64x300x40x1, .i1⟩
  | 44 => ⟨S64x300x40x1, .i1⟩
  | 45 => ⟨S64x300x1x1, .i32⟩
  | 46 => ⟨S1x1x1x40, .i32⟩
  | 47 => ⟨S64x300x1x40, .i32⟩
  | 48 => ⟨S64x300x1x40, .i32⟩
  | 49 => ⟨S64x300x1x40, .i1⟩
  | 50 => ⟨S64x300x40x40, .i1⟩
  | 51 => ⟨S64x300x40x40, .i1⟩
  | 52 => ⟨S64x300x40x40, .i1⟩
  | 53 => ⟨S64x300x1x1, .i32⟩
  | 54 => ⟨S1x1x1x40, .i32⟩
  | 55 => ⟨S64x300x1x40, .i32⟩
  | 56 => ⟨S64x300x1x40, .i32⟩
  | 57 => ⟨S64x300x1x40, .i1⟩
  | 58 => ⟨S64x300x40x40, .i1⟩
  | 59 => ⟨S64x300x40x40, .i1⟩
  | 60 => ⟨S1x64x300x40x40, .i1⟩
  | 61 => ⟨S1x64x300x40x40, .i1⟩
  | 62 => ⟨S2x64x300x40x40, .i1⟩
  | 63 => ⟨S2x64x300x40x40, .f32⟩
  | _ => ⟨S64x300x4, .f32⟩

abbrev hbmTy (i : Nat) : BufTy := match i / 128 with
  | 0 => hbmTy0_0 i
  | 1 => hbmTy0_1 i
  | _ => ⟨S64x300x4, .f32⟩

abbrev bufTy : (tb : Table) → Fin (tcTables nBuf tb) → BufTy
  | .hbm, ⟨i, _⟩ => hbmTy i
  | _, _ => ⟨S64x300x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_11 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_14 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_15 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_c_16 : Ref sig .tc := ⟨.hbm, 152, rfl⟩
abbrev main_v130 : Ref sig .tc := ⟨.hbm, 153, rfl⟩
abbrev main_v131 : Ref sig .tc := ⟨.hbm, 154, rfl⟩
abbrev main_c_17 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩

abbrev nD : Nat := 1
abbrev τ : Topo := Topo.v7x

variable {F : FTy → Type} [FloatOps F]

class Facts₀ : Prop where
  slices_S64x300x4_S64x300x1_0_0_0 : S64x300x4.Slices ![0, 0, 0] S64x300x1
  shapeCasts_S64x300x1_S64x300 : S64x300x1.ShapeCasts S64x300
  slices_S64x300x4_S64x300x1_0_0_1 : S64x300x4.Slices ![0, 0, 1] S64x300x1
  slices_S64x300x4_S64x300x1_0_0_2 : S64x300x4.Slices ![0, 0, 2] S64x300x1
  slices_S64x300x4_S64x300x1_0_0_3 : S64x300x4.Slices ![0, 0, 3] S64x300x1
  bcast_S_S64x300 : S_.BroadcastsInDim S64x300 (![] : Fin 0 → Fin S64x300.rank)
  slices_S64x2_S64x1_0_1 : S64x2.Slices ![0, 1] S64x1
  slices_S64x2_S64x1_0_0 : S64x2.Slices ![0, 0] S64x1
  bcast_S64x1_S64x300_0_1 : S64x1.BroadcastsInDim S64x300 (![0, 1] : Fin 2 → Fin S64x300.rank)
  bcast_S40_S40x1_0 : S40.BroadcastsInDim S40x1 (![0] : Fin 1 → Fin S40x1.rank)
  bcast_S40_S1x40_1 : S40.BroadcastsInDim S1x40 (![1] : Fin 1 → Fin S1x40.rank)
  bcast_S64x300_S64x300x1x1_0_1 : S64x300.BroadcastsInDim S64x300x1x1 (![0, 1] : Fin 2 → Fin S64x300x1x1.rank)
  bcast_S40x1_S1x1x40x1_2_3 : S40x1.BroadcastsInDim S1x1x40x1 (![2, 3] : Fin 2 → Fin S1x1x40x1.rank)
  bcast_S1x1x40x1_S64x300x40x1_0_1_2_3 : S1x1x40x1.BroadcastsInDim S64x300x40x1 (![0, 1, 2, 3] : Fin 4 → Fin S64x300x40x1.rank)
  bcast_S64x300x1x1_S64x300x40x1_0_1_2_3 : S64x300x1x1.BroadcastsInDim S64x300x40x1 (![0, 1, 2, 3] : Fin 4 → Fin S64x300x40x1.rank)
  bcast_S1x40_S1x1x1x40_2_3 : S1x40.BroadcastsInDim S1x1x1x40 (![2, 3] : Fin 2 → Fin S1x1x1x40.rank)
  bcast_S1x1x1x40_S64x300x1x40_0_1_2_3 : S1x1x1x40.BroadcastsInDim S64x300x1x40 (![0, 1, 2, 3] : Fin 4 → Fin S64x300x1x40.rank)
  bcast_S64x300x1x1_S64x300x1x40_0_1_2_3 : S64x300x1x1.BroadcastsInDim S64x300x1x40 (![0, 1, 2, 3] : Fin 4 → Fin S64x300x1x40.rank)
  bcast_S64x300x40x1_S64x300x40x40_0_1_2_3 : S64x300x40x1.BroadcastsInDim S64x300x40x40 (![0, 1, 2, 3] : Fin 4 → Fin S64x300x40x40.rank)
  bcast_S64x300x1x40_S64x300x40x40_0_1_2_3 : S64x300x1x40.BroadcastsInDim S64x300x40x40 (![0, 1, 2, 3] : Fin 4 → Fin S64x300x40x40.rank)
  bcast_S64x300x40x40_S1x64x300x40x40_1_2_3_4 : S64x300x40x40.BroadcastsInDim S1x64x300x40x40 (![1, 2, 3, 4] : Fin 4 → Fin S1x64x300x40x40.rank)
  concatenates_S1x64x300x40x40_S1x64x300x40x40_S2x64x300x40x40_d0 : Shape.Concatenates [S1x64x300x40x40, S1x64x300x40x40] S2x64x300x40x40 0

variable [Facts₀]

class Facts : Prop extends Facts₀ where

variable [Facts]
-- ==== Proof.OutBits.lean ====
/-
  What the kernel's body leaves in the result window's staging buffer, as a function of what the two input
  windows' staging buffers hold: the one store's payload over the three loads (the whole coordinate block, and
  the width and height columns of the image-size block).
-/
import proofs.«159931_j12352325943704_1_alg».proof.Proof.Gen.Kernel.Skeleton
import Idealize.ShloMosaic.Lib.Pipeline.FrameBody

noncomputable section

namespace Cert.Kernel.Hand

open Cert.Kernel Cert.Kernel.Gen
open Idealize.ShloMosaic

variable {F : FTy → Type} [FloatOps F]

/-- The coordinate block, whole. -/
abbrev rCoord : Rect S1x8x48x4 := Rect.unit (s := S1x8x48x4) ![0, 0, 0, 0] S1x8x48x4.size inb_S1x8x48x4_S1x8x48x4_0_0_0_0
/-- The image widths: column 1 of the image-size block. -/
abbrev rWidth : Rect S8x2 := Rect.unit (s := S8x2) ![0, 1] S8x1.size inb_S8x2_S8x1_0_1
/-- The image heights: column 0 of the image-size block. -/
abbrev rHeight : Rect S8x2 := Rect.unit (s := S8x2) ![0, 0] S8x1.size inb_S8x2_S8x1_0_0
/-- The result block, whole. -/
abbrev rOut : Rect S1x8x48x40x40 := Rect.unit (s := S1x8x48x40x40) ![0, 0, 0, 0, 0] S1x8x48x40x40.size inb_S1x8x48x40x40_S1x8x48x40x40_0_0_0_0_0

/-- The stored value: the mask block computed from the coordinate block x0 and the image-size block x1. -/
def pay (x0 : Vec F S1x8x48x4 .f32) (x1 : Vec F S8x2 .i32) : Vec F S1x8x48x40x40 .f32 :=
  k0_pay1 (k0_pay7 (View.ld x0 rCoord)) (k0_pay9 (View.ld x1 rHeight)) (k0_pay10 (View.ld x0 rCoord) (View.ld x1 rWidth))
    (k0_pay11 (View.ld x0 rCoord) (View.ld x1 rHeight)) (k0_pay12 (View.ld x0 rCoord) (View.ld x1 rWidth))

/-- What the result window's staging buffer holds after the body: the one whole store. -/
def out2 (x0 : Vec F S1x8x48x4 .f32) (x1 : Vec F S8x2 .i32) : Vec F S1x8x48x40x40 .f32 :=
  View.canon [⟨rOut, pay x0 x1⟩]

end Cert.Kernel.Hand

end
-- ==== Proof.MaskSpec.lean ====
/-
  The per-query "outside the box" mask, as one scalar function and one whole-array function.

  A query's box is given as centre and extent (cx, cy, bw, bh) in the unit square; the image's
  height and width (sh, sw) scale it to pixels, and a division by 32 and a floor take it to
  cells of the 40 x 40 feature map.  The low edge on an axis is floor ((c - wd/2) * s / 32),
  the high edge min (floor ((c + wd/2) * s / 32)) 39, both as 32-bit integers.  A cell (h, w)
  is OUTSIDE the box when h is below the low row edge or above the high row edge, or w is
  left of the low column edge or right of the high column edge; the mask is 1.0 there and 0.0
  inside.  The result stacks the masks of two coordinate arrays (objects first, subjects second).
-/
import Idealize.ShloMosaic.PureOps
import Idealize.ShloMosaic.PureOps.Ideal
import Idealize.ShloMosaic.Lib.ValueIdx

noncomputable section

namespace Cert.MaskSpec

open Idealize.ShloMosaic Idealize.ShloMosaic.ValueIdx

variable {F : FTy → Type} [FloatOps F]

/-- The low edge of the box on one axis, in feature-map cells: floor ((c - wd/2) * s / 32). -/
def lo (c wd : F .f32) (s : BitVec 32) : BitVec 32 :=
  FloatOps.fptosi 32 (FloatOps.floor (FloatOps.divf
    (FloatOps.mulf (FloatOps.subf c (FloatOps.mulf (FloatOps.ofBits .f32 0x3F000000#32) wd)) (FloatOps.sitofp .f32 s))
    (FloatOps.ofBits .f32 0x42000000#32)))

/-- The high edge, clamped to the last cell: min (floor ((c + wd/2) * s / 32)) 39. -/
def hi (c wd : F .f32) (s : BitVec 32) : BitVec 32 :=
  IntOp.minsi (FloatOps.fptosi 32 (FloatOps.floor (FloatOps.divf
    (FloatOps.mulf (FloatOps.addf c (FloatOps.mulf (FloatOps.ofBits .f32 0x3F000000#32) wd)) (FloatOps.sitofp .f32 s))
    (FloatOps.ofBits .f32 0x42000000#32)))) 39#32

/-- Whether cell (h, w) lies outside the box with row edges y1, y2 and column edges x1, x2. -/
def outside (x1 y1 x2 y2 h w : BitVec 32) : BitVec 1 :=
  IntOp.ori (IntOp.ori (IntOp.ori (IntOp.cmpi .slt h y1) (IntOp.cmpi .sgt h y2)) (IntOp.cmpi .slt w x1)) (IntOp.cmpi .sgt w x2)

/-- The mask bit of one cell, from the query's box and the image's size. -/
def bit (cx cy bw bh : F .f32) (sh sw : BitVec 32) (h w : Nat) : BitVec 1 :=
  outside (lo cx bw sw) (lo cy bh sh) (hi cx bw sw) (hi cy bh sh) (BitVec.ofNat 32 h) (BitVec.ofNat 32 w)

/-- The mask value of one cell as the kernel converts it: the bit widened to a word, read as a signed integer. -/
def cell (cx cy bw bh : F .f32) (sh sw : BitVec 32) (h w : Nat) : F .f32 :=
  FloatOps.sitofp .f32 ((bit cx cy bw bh sh sw h w).setWidth 32)

/-- The stacked masks as one function of the stacked coordinate arrays A : [2, 64, 300, 4] and the image
    sizes img : [64, 2] (height first): entry (r, b, q, h, w). -/
def maskOf (A : (⟨4, ![2, 64, 300, 4]⟩ : Shape).Idx → F .f32) (img : (⟨2, ![64, 2]⟩ : Shape).Idx → BitVec 32) :
    (⟨5, ![2, 64, 300, 40, 40]⟩ : Shape).Idx → F .f32 := fun j =>
  cell (A (ix4 (j 0) (j 1) (j 2) 0)) (A (ix4 (j 0) (j 1) (j 2) 1)) (A (ix4 (j 0) (j 1) (j 2) 2)) (A (ix4 (j 0) (j 1) (j 2) 3))
    (img (ix2 (j 1) 0)) (img (ix2 (j 1) 1)) (j 3).val (j 4).val

/-- The two coordinate arrays stacked: objects at 0, subjects at 1. -/
def stack (obj sub : (⟨3, ![64, 300, 4]⟩ : Shape).Idx → F .f32) : (⟨4, ![2, 64, 300, 4]⟩ : Shape).Idx → F .f32 := fun j =>
  if (j 0).val = 0 then obj (ix3 (j 1) (j 2) (j 3)) else sub (ix3 (j 1) (j 2) (j 3))

/-- The result: the stacked masks of the object and subject boxes. -/
def G (obj sub : (⟨3, ![64, 300, 4]⟩ : Shape).Idx → F .f32) (img : (⟨2, ![64, 2]⟩ : Shape).Idx → BitVec 32) :
    (⟨5, ![2, 64, 300, 40, 40]⟩ : Shape).Idx → F .f32 := maskOf (stack obj sub) img

/-- A one-bit word widened and read signed is the bit read unsigned: both are 0 or 1. -/
theorem setWidth_toInt_eq_toNat (b : BitVec 1) : ((b.setWidth 32).toInt : ℝ) = (b.toNat : ℝ) := by
  have h : b = 0#1 ∨ b = 1#1 := by
    rcases Nat.lt_or_ge b.toNat 1 with h | h
    · left; apply BitVec.eq_of_toNat_eq; simp; omega
    · right; apply BitVec.eq_of_toNat_eq; have := b.isLt; simp; omega
  rcases h with rfl | rfl <;> simp

/-- At the extended reals the kernel's conversion of the mask bit (widen, read signed) is the reference's (read unsigned). -/
theorem cell_eq_uitofp (cx cy bw bh : Ideal .f32) (sh sw : BitVec 32) (h w : Nat) :
    cell cx cy bw bh sh sw h w = FloatOps.uitofp .f32 (bit cx cy bw bh sh sw h w) := by
  show (((((bit cx cy bw bh sh sw h w).setWidth 32).toInt : ℝ)) : EReal) = (((bit cx cy bw bh sh sw h w).toNat : ℝ) : EReal)
  rw [setWidth_toInt_eq_toNat]

end Cert.MaskSpec

end
-- ==== Proof.PayBits.lean ====
/-
  The stored mask block read at an index: entry (0, b, q, h, w) of what the body stores is the mask cell of the
  box in row (0, b, q) of the coordinate block and the image size in row b of the image-size block.
-/
import proofs.«159931_j12352325943704_1_alg».proof.Proof.OutBits
import proofs.«159931_j12352325943704_1_alg».proof.Proof.MaskSpec
import Idealize.ShloMosaic.Lib.ValueIdx
import Idealize.ShloMosaic.Lib.ValueLayout
import Idealize.ShloMosaic.Lib.Pipeline.Value

noncomputable section

namespace Cert.Kernel.Hand

open Cert.Kernel Cert.Kernel.Gen
open Idealize.ShloMosaic Idealize.ShloMosaic.ValueIdx

variable {F : FTy → Type} [FloatOps F]

/-! ## The three loads -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The load through the whole coordinate block reads the block. -/
theorem ld_rCoord (x0 : Vec F S1x8x48x4 .f32) : View.ld x0 rCoord = x0 :=
  View.ld_unit_zero (S := S1x8x48x4) hz4 inb_S1x8x48x4_S1x8x48x4_0_0_0_0 x0

/-- The load of the width column reads column 1 of the image-size block. -/
theorem ld_rWidth (x1 : Vec F S8x2 .i32) (b : Fin 8) :
    View.ld x1 rWidth (ix2 b (0 : Fin 1)) = x1 (ix2 b (1 : Fin 2)) := by
  show x1 _ = x1 _
  congr 1
  funext a
  match a with
  | ⟨0, _⟩ => exact Fin.ext (by show 0 + 1 * b.val = b.val; omega)
  | ⟨1, _⟩ => exact Fin.ext (by show 1 + 1 * 0 = 1; omega)

/-- The load of the height column reads column 0 of the image-size block. -/
theorem ld_rHeight (x1 : Vec F S8x2 .i32) (b : Fin 8) :
    View.ld x1 rHeight (ix2 b (0 : Fin 1)) = x1 (ix2 b (0 : Fin 2)) := by
  show x1 _ = x1 _
  congr 1
  funext a
  match a with
  | ⟨0, _⟩ => exact Fin.ext (by show 0 + 1 * b.val = b.val; omega)
  | ⟨1, _⟩ => exact Fin.ext (by show 0 + 1 * 0 = 0; omega)

/-! ## The layout operations of the body, read at coordinates -/

/-- The coordinate block without its leading unit axis. -/
theorem pay2_apply (v0 : Vec F S1x8x48x4 .f32) (b : Fin 8) (q : Fin 48) (c : Fin 4) :
    k0_pay2 v0 (ix3 b q c) = v0 (ix4 (0 : Fin 1) b q c) :=
  shapeCast_1abc_abc_apply v0 shapeCasts_S1x8x48x4_S8x48x4 b q c

/-- Column o of the coordinate block, as a [8, 48] array. -/
theorem col_apply (v0 : Vec F S1x8x48x4 .f32) (o : Nat) (hs : S8x48x4.Slices ![0, 0, o] S8x48x1)
    (c : Fin 4) (hc : c.val = o) (b : Fin 8) (q : Fin 48) :
    shapeCast S8x48 (extractStridedSlice S8x48x1 ![0, 0, o] (k0_pay2 v0) hs) shapeCasts_S8x48x1_S8x48 (ix2 b q)
      = v0 (ix4 (0 : Fin 1) b q c) := by
  refine (shapeCast_apply _ _ (ix2 b q) (ix3 b q (0 : Fin 1)) ?_).trans ?_
  · rw [Shape.rowMajor_val_three, Shape.rowMajor_val_two]
    show (b.val * 48 + q.val) * 1 + 0 = b.val * 48 + q.val
    omega
  refine (extractStridedSlice_apply _ _ _ _ (ix3 b q c) (fun a => ?_)).trans (pay2_apply v0 b q c)
  match a with
  | ⟨0, _⟩ => show b.val = 0 + b.val; omega
  | ⟨1, _⟩ => show q.val = 0 + q.val; omega
  | ⟨2, _⟩ => show c.val = o + 0; omega

theorem pay3_apply (v0 : Vec F S1x8x48x4 .f32) (b : Fin 8) (q : Fin 48) :
    k0_pay3 v0 (ix2 b q) = v0 (ix4 (0 : Fin 1) b q (0 : Fin 4)) := col_apply v0 0 _ 0 rfl b q
theorem pay4_apply (v0 : Vec F S1x8x48x4 .f32) (b : Fin 8) (q : Fin 48) :
    k0_pay4 v0 (ix2 b q) = v0 (ix4 (0 : Fin 1) b q (1 : Fin 4)) := col_apply v0 1 _ 1 rfl b q
theorem pay5_apply (v0 : Vec F S1x8x48x4 .f32) (b : Fin 8) (q : Fin 48) :
    k0_pay5 v0 (ix2 b q) = v0 (ix4 (0 : Fin 1) b q (2 : Fin 4)) := col_apply v0 2 _ 2 rfl b q
theorem pay6_apply (v0 : Vec F S1x8x48x4 .f32) (b : Fin 8) (q : Fin 48) :
    k0_pay6 v0 (ix2 b q) = v0 (ix4 (0 : Fin 1) b q (3 : Fin 4)) := col_apply v0 3 _ 3 rfl b q

/-- A per-row column [8, 1] broadcast along the queries. -/
theorem bcastRow_apply {α : Type} (v : S8x1.Idx → α) (b : Fin 8) (q : Fin 48) :
    broadcastTo S8x48 v broadcasts_S8x1_S8x48 (ix2 b q) = v (ix2 b (0 : Fin 1)) := by
  refine broadcastTo_apply v _ (ix2 b q) (ix2 b (0 : Fin 1)) fun a => ?_
  match a with
  | ⟨0, _⟩ => rfl
  | ⟨1, _⟩ => rfl

/-- A per-query value [8, 48] broadcast over the 40 x 40 cells. -/
theorem lift_apply {α : Type} (v : S8x48.Idx → α) (b : Fin 8) (q : Fin 48) (h w : Fin 40) :
    broadcastTo S8x48x40x40 (shapeCast S8x48x1x1 v shapeCasts_S8x48_S8x48x1x1) broadcasts_S8x48x1x1_S8x48x40x40 (ix4 b q h w)
      = v (ix2 b q) := by
  refine (broadcastTo_apply _ _ (ix4 b q h w) (ix4 b q (0 : Fin 1) (0 : Fin 1)) fun a => ?_).trans ?_
  · match a with
    | ⟨0, _⟩ => rfl
    | ⟨1, _⟩ => rfl
    | ⟨2, _⟩ => rfl
    | ⟨3, _⟩ => rfl
  refine shapeCast_apply v _ _ _ ?_
  rw [Shape.rowMajor_val_two, Shape.rowMajor_val_four]
  show b.val * 48 + q.val = ((b.val * 48 + q.val) * 1 + 0) * 1 + 0
  omega

/-- The row coordinate of a cell. -/
theorem iotaH_apply (b : Fin 8) (q : Fin 48) (h w : Fin 40) :
    iota .tc S8x48x40x40 32 [2] iota_S8x48x40x40_d2_w32 (ix4 b q h w) = BitVec.ofNat 32 h.val :=
  iota_single_apply _ _ _ _ _ _

/-- The column coordinate of a cell. -/
theorem iotaW_apply (b : Fin 8) (q : Fin 48) (h w : Fin 40) :
    iota .tc S8x48x40x40 32 [3] iota_S8x48x40x40_d3_w32 (ix4 b q h w) = BitVec.ofNat 32 w.val :=
  iota_single_apply _ _ _ _ _ _

/-- The computed masks stored as a block with a leading unit axis. -/
theorem addUnit_apply {α : Type} (v : S8x48x40x40.Idx → α) (u : Fin 1) (b : Fin 8) (q : Fin 48) (h w : Fin 40) :
    shapeCast S1x8x48x40x40 v shapeCasts_S8x48x40x40_S1x8x48x40x40 (ix5 u b q h w) = v (ix4 b q h w) := by
  refine shapeCast_apply v _ _ _ ?_
  rw [Shape.rowMajor_val_four, Shape.rowMajor_val_five]
  have hu : u.val = 0 := by omega
  show ((b.val * 48 + q.val) * 40 + h.val) * 40 + w.val = (((u.val * 8 + b.val) * 48 + q.val) * 40 + h.val) * 40 + w.val
  omega

/-! ## The arithmetic of the body, read at coordinates -/

/-- The centre row plus half the height. -/
theorem pay7_apply (v0 : Vec F S1x8x48x4 .f32) (b : Fin 8) (q : Fin 48) :
    k0_pay7 v0 (ix2 b q)
      = FloatOps.addf (v0 (ix4 (0 : Fin 1) b q (1 : Fin 4)))
          (FloatOps.mulf (FloatOps.ofBits .f32 0x3F000000#32) (v0 (ix4 (0 : Fin 1) b q (3 : Fin 4)))) := by
  show FloatOps.addf (k0_pay4 v0 (ix2 b q)) (FloatOps.mulf (FloatOps.ofBits .f32 0x3F000000#32) (k0_pay6 v0 (ix2 b q))) = _
  rw [pay4_apply, pay6_apply]

/-- The image height as a float. -/
theorem pay9_apply (v24 : Vec F S8x1 .i32) (j : S8x1.Idx) : k0_pay9 v24 j = FloatOps.sitofp .f32 (v24 j) := rfl

/-- The low column edge. -/
theorem pay10_apply (v0 : Vec F S1x8x48x4 .f32) (v22 : Vec F S8x1 .i32) (b : Fin 8) (q : Fin 48) :
    k0_pay10 v0 v22 (ix2 b q)
      = Cert.MaskSpec.lo (v0 (ix4 (0 : Fin 1) b q (0 : Fin 4))) (v0 (ix4 (0 : Fin 1) b q (2 : Fin 4))) (v22 (ix2 b (0 : Fin 1))) := by
  show FloatOps.fptosi 32 (FloatOps.floor (FloatOps.divf
      (FloatOps.mulf (FloatOps.subf (k0_pay3 v0 (ix2 b q)) (FloatOps.mulf (FloatOps.ofBits .f32 0x3F000000#32) (k0_pay5 v0 (ix2 b q))))
        (broadcastTo S8x48 (k0_pay8 v22) broadcasts_S8x1_S8x48 (ix2 b q)))
      (FloatOps.ofBits .f32 0x42000000#32))) = _
  rw [pay3_apply, pay5_apply, bcastRow_apply]
  rfl

/-- The low row edge. -/
theorem pay11_apply (v0 : Vec F S1x8x48x4 .f32) (v24 : Vec F S8x1 .i32) (b : Fin 8) (q : Fin 48) :
    k0_pay11 v0 v24 (ix2 b q)
      = Cert.MaskSpec.lo (v0 (ix4 (0 : Fin 1) b q (1 : Fin 4))) (v0 (ix4 (0 : Fin 1) b q (3 : Fin 4))) (v24 (ix2 b (0 : Fin 1))) := by
  show FloatOps.fptosi 32 (FloatOps.floor (FloatOps.divf
      (FloatOps.mulf (FloatOps.subf (k0_pay4 v0 (ix2 b q)) (FloatOps.mulf (FloatOps.ofBits .f32 0x3F000000#32) (k0_pay6 v0 (ix2 b q))))
        (broadcastTo S8x48 (k0_pay9 v24) broadcasts_S8x1_S8x48 (ix2 b q)))
      (FloatOps.ofBits .f32 0x42000000#32))) = _
  rw [pay4_apply, pay6_apply, bcastRow_apply]
  rfl

/-- The high column edge before the floor: (cx + bw/2) * width / 32. -/
theorem pay12_apply (v0 : Vec F S1x8x48x4 .f32) (v22 : Vec F S8x1 .i32) (b : Fin 8) (q : Fin 48) :
    k0_pay12 v0 v22 (ix2 b q)
      = FloatOps.divf
          (FloatOps.mulf (FloatOps.addf (v0 (ix4 (0 : Fin 1) b q (0 : Fin 4)))
              (FloatOps.mulf (FloatOps.ofBits .f32 0x3F000000#32) (v0 (ix4 (0 : Fin 1) b q (2 : Fin 4)))))
            (FloatOps.sitofp .f32 (v22 (ix2 b (0 : Fin 1)))))
          (FloatOps.ofBits .f32 0x42000000#32) := by
  show FloatOps.divf
      (FloatOps.mulf (FloatOps.addf (k0_pay3 v0 (ix2 b q)) (FloatOps.mulf (FloatOps.ofBits .f32 0x3F000000#32) (k0_pay5 v0 (ix2 b q))))
        (broadcastTo S8x48 (k0_pay8 v22) broadcasts_S8x1_S8x48 (ix2 b q)))
      (FloatOps.ofBits .f32 0x42000000#32) = _
  rw [pay3_apply, pay5_apply, bcastRow_apply]
  rfl

/-- The store's payload over its five operands, at (u, b, q, h, w). -/
theorem pay1_apply (v21 : FVec F S8x48 .f32) (v25 : FVec F S8x1 .f32) (v31 v37 : IVec S8x48 32) (v41 : FVec F S8x48 .f32)
    (u : Fin 1) (b : Fin 8) (q : Fin 48) (h w : Fin 40) :
    k0_pay1 v21 v25 v31 v37 v41 (ix5 u b q h w)
      = FloatOps.sitofp .f32 ((Cert.MaskSpec.outside (v31 (ix2 b q)) (v37 (ix2 b q))
          (IntOp.minsi (FloatOps.fptosi 32 (FloatOps.floor (v41 (ix2 b q)))) 39#32)
          (IntOp.minsi (FloatOps.fptosi 32 (FloatOps.floor (FloatOps.divf
            (FloatOps.mulf (v21 (ix2 b q)) (v25 (ix2 b (0 : Fin 1)))) (FloatOps.ofBits .f32 0x42000000#32)))) 39#32)
          (BitVec.ofNat 32 h.val) (BitVec.ofNat 32 w.val)).setWidth 32) := by
  unfold k0_pay1
  refine (addUnit_apply _ u b q h w).trans ?_
  simp only [sitofp, extui, ori, cmpi]
  rw [lift_apply, lift_apply, lift_apply, lift_apply, iotaH_apply, iotaW_apply, ← bcastRow_apply v25 b q]
  rfl

/-! ## The stored block and the result buffer, read at coordinates -/

/-- The stored block at (0, b, q, h, w). -/
theorem pay_apply (x0 : Vec F S1x8x48x4 .f32) (x1 : Vec F S8x2 .i32) (b : Fin 8) (q : Fin 48) (h w : Fin 40) :
    pay x0 x1 (ix5 (0 : Fin 1) b q h w)
      = Cert.MaskSpec.cell (x0 (ix4 (0 : Fin 1) b q (0 : Fin 4))) (x0 (ix4 (0 : Fin 1) b q (1 : Fin 4)))
          (x0 (ix4 (0 : Fin 1) b q (2 : Fin 4))) (x0 (ix4 (0 : Fin 1) b q (3 : Fin 4)))
          (x1 (ix2 b (0 : Fin 2))) (x1 (ix2 b (1 : Fin 2))) h.val w.val := by
  unfold pay
  rw [ld_rCoord]
  refine (pay1_apply _ _ _ _ _ (0 : Fin 1) b q h w).trans ?_
  rw [pay7_apply, pay9_apply, pay10_apply, pay11_apply, pay12_apply, ld_rWidth, ld_rHeight]
  rfl

/-- The one store covers the result buffer: what the body leaves there is the stored block. -/
theorem out2_eq_pay (x0 : Vec F S1x8x48x4 .f32) (x1 : Vec F S8x2 .i32) : out2 x0 x1 = pay x0 x1 :=
  View.canon_unit_zero (S := S1x8x48x40x40) hz5 inb_S1x8x48x40x40_S1x8x48x40x40_0_0_0_0_0 (pay x0 x1)

/-- The result window's staging buffer after the body, at (0, b, q, h, w). -/
theorem out2_apply (x0 : Vec F S1x8x48x4 .f32) (x1 : Vec F S8x2 .i32) (b : Fin 8) (q : Fin 48) (h w : Fin 40) :
    out2 x0 x1 (ix5 (0 : Fin 1) b q h w)
      = Cert.MaskSpec.cell (x0 (ix4 (0 : Fin 1) b q (0 : Fin 4))) (x0 (ix4 (0 : Fin 1) b q (1 : Fin 4)))
          (x0 (ix4 (0 : Fin 1) b q (2 : Fin 4))) (x0 (ix4 (0 : Fin 1) b q (3 : Fin 4)))
          (x1 (ix2 b (0 : Fin 2))) (x1 (ix2 b (1 : Fin 2))) h.val w.val := by
  rw [out2_eq_pay]
  exact pay_apply x0 x1 b q h w

end Cert.Kernel.Hand

end
-- ==== Proof.BlocksBits.lean ====
/-
  From blocks to the whole array.  The grid has 2 x 8 x 7 points; the point numbered t has coordinates
  (t / 56, t / 7 mod 8, t mod 7) and its blocks are rows 8 (t / 7 mod 8) .. + 7 of the batch axis and rows
  48 (t mod 7) .. + 47 of the query axis of slab t / 56.  Since 300 = 6 * 48 + 12, the last block on the query axis
  overhangs the array and only its first 12 rows are moved, by the fetch of the coordinate block and by the write-back
  of the mask block alike.  Three facts: the stacked coordinate array is the two argument arrays, objects at 0 and
  subjects at 1; what a point writes back is its block of the whole-array mask function, whatever the coordinate
  buffer held in the rows no fetch moved; and every entry of the result lies in some point's block.
-/
import proofs.«159931_j12352325943704_1_alg».proof.Proof.PayBits
import proofs.«159931_j12352325943704_1_alg».proof.Proof.MaskSpec
import proofs.«159931_j12352325943704_1_alg».proof.Proof.Gen.Kernel.Frame
import proofs.«159931_j12352325943704_1_alg».proof.Proof.Gen.Kernel.Points
import Idealize.ShloMosaic.Lib.Pipeline.Value
import Idealize.ShloMosaic.Lib.ValueIdx
import Idealize.ShloMosaic.Lib.ValueLayout

noncomputable section

namespace Cert.Kernel.Hand

open Cert.Kernel Cert.Kernel.Gen
open Idealize.ShloMosaic Idealize.ShloMosaic.TcCoe Idealize.ShloMosaic.ValueIdx Idealize.ShloMosaic.Tactic

variable {F : FTy → Type} [FloatOps F]
variable (m : (ℓ : Loc nD τ sig) → Buf (Elt F) ℓ)

/-! ## The stacked coordinate array -/

/-- The stacked coordinate array the region finds, as the host operations make it: the two argument arrays each given a
    leading unit axis, then joined along that axis. -/
theorem V_coords_e (c : Dev nD) : (Gen.V m c main_v2 : S2x64x300x4.Idx → Elt F .f32) =
    concatenate S2x64x300x4 0
      [⟨S1x64x300x4, broadcastInDim S1x64x300x4 ![1, 2, 3] bcast_S64x300x4_S1x64x300x4_1_2_3 (m ((c : Thread nD τ).loc main_arg0))⟩,
       ⟨S1x64x300x4, broadcastInDim S1x64x300x4 ![1, 2, 3] bcast_S64x300x4_S1x64x300x4_1_2_3 (m ((c : Thread nD τ).loc main_arg1))⟩]
      concatenates_S1x64x300x4_S1x64x300x4_S2x64x300x4_d0 := by
  dsimp only [Gen.V, Gen.hostOps0]
  after_results

/-- An array given a leading unit axis, read at (0, b, q, k), is the array at (b, q, k). -/
theorem lead_apply (x : S64x300x4.Idx → Elt F .f32) (b : Fin 64) (q : Fin 300) (k : Fin 4) :
    broadcastInDim S1x64x300x4 ![1, 2, 3] bcast_S64x300x4_S1x64x300x4_1_2_3 x (ix4 (0 : Fin 1) b q k) = x (ix3 b q k) := by
  refine broadcastInDim_apply _ _ x _ (ix3 b q k) fun a => ?_
  match a with
  | ⟨0, _⟩ => show b.val = if (64 : Nat) = 1 then 0 else b.val; rw [if_neg (by decide)]
  | ⟨1, _⟩ => show q.val = if (300 : Nat) = 1 then 0 else q.val; rw [if_neg (by decide)]
  | ⟨2, _⟩ => show k.val = if (4 : Nat) = 1 then 0 else k.val; rw [if_neg (by decide)]

/-- The stacked coordinate array the region finds: the object boxes at 0, the subject boxes at 1. -/
theorem V_coords (c : Dev nD) : (Gen.V m c main_v2 : S2x64x300x4.Idx → Elt F .f32)
    = Cert.MaskSpec.stack (m ((c : Thread nD τ).loc main_arg0)) (m ((c : Thread nD τ).loc main_arg1)) := by
  rw [V_coords_e]
  funext j
  have hj : (j 0).val < 2 := (j 0).isLt
  unfold Cert.MaskSpec.stack
  split
  · next h0 =>
    refine (concatenate_pair_apply_left (t := S2x64x300x4) (s₁ := S1x64x300x4) (s₂ := S1x64x300x4) (0 : Fin 4) _ _ _ j rfl (ix4 (0 : Fin 1) (j 1) (j 2) (j 3)) fun b => ?_).trans (lead_apply _ _ _ _)
    match b with
    | ⟨0, _⟩ => exact h0.symm
    | ⟨1, _⟩ => rfl
    | ⟨2, _⟩ => rfl
    | ⟨3, _⟩ => rfl
  · next h0 =>
    refine (concatenate_pair_apply_right (t := S2x64x300x4) (s₁ := S1x64x300x4) (s₂ := S1x64x300x4) (0 : Fin 4) _ _ _ j rfl rfl (ix4 (0 : Fin 1) (j 1) (j 2) (j 3)) (fun b hb => ?_) ?_).trans (lead_apply _ _ _ _)
    · match b with
      | ⟨0, _⟩ => exact absurd rfl hb
      | ⟨1, _⟩ => rfl
      | ⟨2, _⟩ => rfl
      | ⟨3, _⟩ => rfl
    · show 0 + 1 = (j 0).val
      omega

/-! ## The index maps and the cuts -/

/-- The printed index maps and cuts, decided over the grid: at the point numbered t the blocks sit at
    (t / 56, t / 7 mod 8, t mod 7); the coordinate window and the result window move together and are cut alike
    (48 rows on axis 2, 12 in the last block), the image-size window follows grid axis 1. -/
theorem idx_facts : ∀ t : Fin cfg0.N,
    (win0_2.index t (0 : Fin 5) = t.val / 56 ∧ win0_2.index t (1 : Fin 5) = t.val / 7 % 8 ∧ win0_2.index t (2 : Fin 5) = t.val % 7
      ∧ win0_2.index t (3 : Fin 5) = 0 ∧ win0_2.index t (4 : Fin 5) = 0)
    ∧ (win0_0.index t (0 : Fin 4) = t.val / 56 ∧ win0_0.index t (1 : Fin 4) = t.val / 7 % 8 ∧ win0_0.index t (2 : Fin 4) = t.val % 7
      ∧ win0_0.index t (3 : Fin 4) = 0)
    ∧ (win0_1.index t (0 : Fin 2) = t.val / 7 % 8 ∧ win0_1.index t (1 : Fin 2) = 0)
    ∧ (win0_2.xsize (grid0.coords t) (0 : Fin 5) = 1 ∧ win0_2.xsize (grid0.coords t) (1 : Fin 5) = 8
      ∧ win0_2.xsize (grid0.coords t) (2 : Fin 5) = (if t.val % 7 < 6 then 48 else 12)
      ∧ win0_2.xsize (grid0.coords t) (3 : Fin 5) = 40 ∧ win0_2.xsize (grid0.coords t) (4 : Fin 5) = 40)
    ∧ (win0_0.xsize (grid0.coords t) (0 : Fin 4) = 1 ∧ win0_0.xsize (grid0.coords t) (1 : Fin 4) = 8
      ∧ win0_0.xsize (grid0.coords t) (2 : Fin 4) = (if t.val % 7 < 6 then 48 else 12)
      ∧ win0_0.xsize (grid0.coords t) (3 : Fin 4) = 4) :=
  (by decide +kernel : ∀ t : Fin grid0.N, _)

/-! ## What a point writes back -/

/-- Where the transfer moves the index, the filled buffer holds the fetched block, whatever filled it before. -/
theorem fill_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- The coordinate buffer after the fetch at point t, at a row (0, b, q) the transfer moves: it holds the stacked array's
    row (t / 56, 8 (t / 7 mod 8) + b, 48 (t mod 7) + q), whatever the buffer held past the array's end. -/
theorem fill0_apply (c : Dev nD) (t : Fin cfg0.N) (d0 : S1x8x48x4.Idx → Elt F .f32) (b : Fin 8) (q : Fin 48) (k : Fin 4)
    (hq : q.val < win0_2.xsize (grid0.coords t) (2 : Fin 5)) (J : S2x64x300x4.Idx)
    (hJ0 : (J 0).val = t.val / 56) (hJ1 : (J 1).val = t.val / 7 % 8 * 8 + b.val) (hJ2 : (J 2).val = t.val % 7 * 48 + q.val)
    (hJ3 : (J 3).val = k.val) :
    win0_0.fill (grid0.coords t) d0 (Gen.iblk m c 0 t) (ix4 (0 : Fin 1) b q k) = Gen.V m c main_v2 J := by
  obtain ⟨⟨e20, e21, e22, e23, e24⟩, ⟨e00, e01, e02, e03⟩, ⟨e10, e11⟩, ⟨x20, x21, x22, x23, x24⟩, ⟨x00, x01, x02, x03⟩⟩ := idx_facts t
  have hm : ∀ a, ((ix4 (0 : Fin 1) b q k : S1x8x48x4.Idx) a).val < win0_0.xsize (grid0.coords t) a := fun a => by
    match a with
    | ⟨0, _⟩ => show 0 < win0_0.xsize (grid0.coords t) (0 : Fin 4); omega
    | ⟨1, _⟩ => show b.val < win0_0.xsize (grid0.coords t) (1 : Fin 4); omega
    | ⟨2, _⟩ => show q.val < win0_0.xsize (grid0.coords t) (2 : Fin 4); omega
    | ⟨3, _⟩ => show k.val < win0_0.xsize (grid0.coords t) (3 : Fin 4); omega
  refine (fill_of_lt win0_0 (grid0.coords t) d0 (Gen.iblk m c 0 t) _ hm).trans ?_
  show Gen.V m c main_v2 ((win0_0.rect t).emb _) = _
  refine congrArg (Gen.V m c main_v2 : S2x64x300x4.Idx → Elt F .f32) (funext fun a => Fin.ext ?_)
  match a with
  | ⟨0, _⟩ => show win0_0.index t (0 : Fin 4) * 1 + 1 * 0 = (J 0).val; omega
  | ⟨1, _⟩ => show win0_0.index t (1 : Fin 4) * 8 + 1 * b.val = (J 1).val; omega
  | ⟨2, _⟩ => show win0_0.index t (2 : Fin 4) * 48 + 1 * q.val = (J 2).val; omega
  | ⟨3, _⟩ => show win0_0.index t (3 : Fin 4) * 4 + 1 * k.val = (J 3).val; omega

/-- The image-size block at point t, at (b, k): the image-size array's entry (8 (t / 7 mod 8) + b, k). -/
theorem blk1_apply (c : Dev nD) (t : Fin cfg0.N) (b : Fin 8) (k : Fin 2) (J : S64x2.Idx)
    (hJ0 : (J 0).val = t.val / 7 % 8 * 8 + b.val) (hJ1 : (J 1).val = k.val) :
    Gen.iblk m c 1 t (ix2 b k) = Gen.V m c main_arg2 J := by
  obtain ⟨-, -, ⟨e10, e11⟩, -, -⟩ := idx_facts t
  show Gen.V m c main_arg2 ((win0_1.rect t).emb _) = _
  refine congrArg (Gen.V m c main_arg2 : S64x2.Idx → Elt F .i32) (funext fun a => Fin.ext ?_)
  match a with
  | ⟨0, _⟩ => show win0_1.index t (0 : Fin 2) * 8 + 1 * b.val = (J 0).val; omega
  | ⟨1, _⟩ => show win0_1.index t (1 : Fin 2) * 2 + 1 * k.val = (J 1).val; omega

/-- WHAT POINT t WRITES BACK is block t of the whole-array mask function of the arrays as the region finds them,
    whatever filled the coordinate buffer past the array's end: the rows the write-back moves are rows the fetch moved. -/
theorem cut_out2 (c : Dev nD) (t : Fin cfg0.N) (d0 : S1x8x48x4.Idx → Elt F .f32) :
    win0_2.cut (grid0.coords t) (out2 (win0_0.fill (grid0.coords t) d0 (Gen.iblk m c 0 t)) (Gen.iblk m c 1 t))
      = (win0_2.blk t).view.read (Elt F) (Cert.MaskSpec.maskOf (Gen.V m c main_v2) (Gen.V m c main_arg2)) := by
  obtain ⟨⟨e20, e21, e22, e23, e24⟩, ⟨e00, e01, e02, e03⟩, ⟨e10, e11⟩, ⟨x20, x21, x22, x23, x24⟩, ⟨x00, x01, x02, x03⟩⟩ := idx_facts t
  funext y
  have h0 : (y 0).val < win0_2.xsize (grid0.coords t) (0 : Fin 5) := (y 0).isLt
  have h1 : (y 1).val < win0_2.xsize (grid0.coords t) (1 : Fin 5) := (y 1).isLt
  have h2 : (y 2).val < win0_2.xsize (grid0.coords t) (2 : Fin 5) := (y 2).isLt
  have h3 : (y 3).val < win0_2.xsize (grid0.coords t) (3 : Fin 5) := (y 3).isLt
  have h4 : (y 4).val < win0_2.xsize (grid0.coords t) (4 : Fin 5) := (y 4).isLt
  have h2' : (y 2).val < 48 := by rw [x22] at h2; split at h2 <;> omega
  have hx : win0_2.xinj (grid0.coords t) y
      = ix5 (0 : Fin 1) (⟨(y 1).val, by omega⟩ : Fin 8) (⟨(y 2).val, h2'⟩ : Fin 48) (⟨(y 3).val, by omega⟩ : Fin 40) (⟨(y 4).val, by omega⟩ : Fin 40) := by
    funext a; apply Fin.ext
    match a with
    | ⟨0, _⟩ => show (y 0).val = 0; omega
    | ⟨1, _⟩ => rfl
    | ⟨2, _⟩ => rfl
    | ⟨3, _⟩ => rfl
    | ⟨4, _⟩ => rfl
  show out2 _ _ (win0_2.xinj (grid0.coords t) y) = Cert.MaskSpec.maskOf _ _ ((win0_2.rect t).emb y)
  rw [hx, out2_apply]
  have j0 : ((win0_2.rect t).emb y (0 : Fin 5)).val = t.val / 56 := by
    show win0_2.index t (0 : Fin 5) * 1 + 1 * (y 0).val = _; omega
  have j1 : ((win0_2.rect t).emb y (1 : Fin 5)).val = t.val / 7 % 8 * 8 + (y 1).val := by
    show win0_2.index t (1 : Fin 5) * 8 + 1 * (y 1).val = _; omega
  have j2 : ((win0_2.rect t).emb y (2 : Fin 5)).val = t.val % 7 * 48 + (y 2).val := by
    show win0_2.index t (2 : Fin 5) * 48 + 1 * (y 2).val = _; omega
  have j3 : ((win0_2.rect t).emb y (3 : Fin 5)).val = (y 3).val := by
    show win0_2.index t (3 : Fin 5) * 40 + 1 * (y 3).val = _; omega
  have j4 : ((win0_2.rect t).emb y (4 : Fin 5)).val = (y 4).val := by
    show win0_2.index t (4 : Fin 5) * 40 + 1 * (y 4).val = _; omega
  unfold Cert.MaskSpec.maskOf
  rw [fill0_apply m c t d0 _ _ (0 : Fin 4) h2 (ix4 ((win0_2.rect t).emb y 0) ((win0_2.rect t).emb y 1) ((win0_2.rect t).emb y 2) 0) j0 j1 j2 rfl,
    fill0_apply m c t d0 _ _ (1 : Fin 4) h2 (ix4 ((win0_2.rect t).emb y 0) ((win0_2.rect t).emb y 1) ((win0_2.rect t).emb y 2) 1) j0 j1 j2 rfl,
    fill0_apply m c t d0 _ _ (2 : Fin 4) h2 (ix4 ((win0_2.rect t).emb y 0) ((win0_2.rect t).emb y 1) ((win0_2.rect t).emb y 2) 2) j0 j1 j2 rfl,
    fill0_apply m c t d0 _ _ (3 : Fin 4) h2 (ix4 ((win0_2.rect t).emb y 0) ((win0_2.rect t).emb y 1) ((win0_2.rect t).emb y 2) 3) j0 j1 j2 rfl,
    blk1_apply m c t _ (0 : Fin 2) (ix2 ((win0_2.rect t).emb y 1) 0) j1 rfl,
    blk1_apply m c t _ (1 : Fin 2) (ix2 ((win0_2.rect t).emb y 1) 1) j1 rfl]
  show Cert.MaskSpec.cell _ _ _ _ _ _ (y 3).val (y 4).val = Cert.MaskSpec.cell _ _ _ _ _ _ ((win0_2.rect t).emb y 3).val ((win0_2.rect t).emb y 4).val
  rw [j3, j4]

/-! ## The blocks cover the result -/

/-- Every entry of the result lies in the block of a point, and every point writes back: entry (r, b, q, h, w) is in
    the block of the point (r, b / 8, q / 48), whose rows on axis 2 are 48 (q / 48) .. 48 (q / 48) + 47, cut at 300
    in the last block. -/
theorem cover2 (i : S2x64x300x40x40.Idx) : ∃ t : Fin cfg0.N, (cfg0.win 2).flush t = true ∧ i ∈ ((cfg0.win 2).blk t).view.set := by
  have i0 : (i 0).val < 2 := (i 0).isLt
  have i1 : (i 1).val < 64 := (i 1).isLt
  have i2 : (i 2).val < 300 := (i 2).isLt
  have i3 : (i 3).val < 40 := (i 3).isLt
  have i4 : (i 4).val < 40 := (i 4).isLt
  have hN : grid0.N = 112 := Gen.N_0
  obtain ⟨t, ht⟩ : ∃ t : Fin cfg0.N, t.val = (i 0).val * 56 + (i 1).val / 8 * 7 + (i 2).val / 48 :=
    ⟨⟨(i 0).val * 56 + (i 1).val / 8 * 7 + (i 2).val / 48, by show _ < grid0.N; omega⟩, rfl⟩
  refine ⟨t, Gen.flush0_2 t, ?_⟩
  obtain ⟨⟨e20, e21, e22, e23, e24⟩, -, -, ⟨x20, x21, x22, x23, x24⟩, -⟩ := idx_facts t
  show i ∈ ((View.whole main_v3).slice (win0_2.rect t)).set
  rw [View.set_slice_whole, Rect.mem_set_unit]
  intro a
  match a with
  | ⟨0, _⟩ =>
    show win0_2.index t (0 : Fin 5) * 1 ≤ (i 0).val ∧ (i 0).val < win0_2.index t (0 : Fin 5) * 1 + win0_2.xsize (grid0.coords t) (0 : Fin 5)
    omega
  | ⟨1, _⟩ =>
    show win0_2.index t (1 : Fin 5) * 8 ≤ (i 1).val ∧ (i 1).val < win0_2.index t (1 : Fin 5) * 8 + win0_2.xsize (grid0.coords t) (1 : Fin 5)
    omega
  | ⟨2, _⟩ =>
    show win0_2.index t (2 : Fin 5) * 48 ≤ (i 2).val ∧ (i 2).val < win0_2.index t (2 : Fin 5) * 48 + win0_2.xsize (grid0.coords t) (2 : Fin 5)
    rw [x22]
    split <;> omega
  | ⟨3, _⟩ =>
    show win0_2.index t (3 : Fin 5) * 40 ≤ (i 3).val ∧ (i 3).val < win0_2.index t (3 : Fin 5) * 40 + win0_2.xsize (grid0.coords t) (3 : Fin 5)
    omega
  | ⟨4, _⟩ =>
    show win0_2.index t (4 : Fin 5) * 40 ≤ (i 4).val ∧ (i 4).val < win0_2.index t (4 : Fin 5) * 40 + win0_2.xsize (grid0.coords t) (4 : Fin 5)
    omega

end Cert.Kernel.Hand

end
-- ==== Proof.BodyBits.lean ====
/-
  The frame of the kernel as printed: the body's triple, the proof data of its one pipeline, the body obligation
  and the run.  Windows 0 (the stacked coordinates) and 2 (the result) overhang their arrays on the query axis
  at the last of the seven blocks: there the fetch fills only the first twelve of the buffer's 48 query rows
  with the array's rows and leaves the rest at words nothing names, the body computes a mask from those rows too,
  and the write-back takes only the first twelve rows of the result block.  The proof data states what each
  buffer holds on the rows the transfers move, which is all the obligation of such a window asks.
-/
import proofs.«159931_j12352325943704_1_alg».proof.Proof.Gen.Kernel.Frame
import proofs.«159931_j12352325943704_1_alg».proof.Proof.Gen.Kernel.Skeleton
import proofs.«159931_j12352325943704_1_alg».proof.Proof.OutBits
import proofs.«159931_j12352325943704_1_alg».proof.Proof.MaskSpec
import proofs.«159931_j12352325943704_1_alg».proof.Proof.BlocksBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

theorem hzOut : (![0, 0, 0, 0, 0] : Fin 5 → Nat) = fun _ => 0 := funext fun a => by fin_cases a <;> rfl

/-- The one store covers the result block. -/
theorem cover_out (p0 : Vec F S1x8x48x40x40 .f32) (y : S1x8x48x40x40.Idx) :
    ∃ pc ∈ ([⟨rOut, p0⟩] : List (View.Piece (Elt F) S1x8x48x40x40 .f32)), y ∈ pc.1.set :=
  ⟨_, List.mem_singleton_self _, View.mem_set_unit_zero hzOut inb_S1x8x48x40x40_S1x8x48x40x40_0_0_0_0_0 y⟩

set_option maxHeartbeats 1000000 in
/-- The body on whole staging memrefs, the inputs' at contents x0 and x1 and the result's at anything, runs to the
    continuation holding the inputs' as they were and the result's at out2 x0 x1. -/
theorem sound_kernel (c : Dev nD) (E : Set ℕ) (i : grid0.Coords)
    (arg3 : Memref sig .tc .vmem S1x8x48x4 .f32) (harg3 : arg3.IsWhole) (arg4 : Memref sig .tc .vmem S8x2 .i32) (harg4 : arg4.IsWhole)
    (arg5 : Memref sig .tc .vmem S1x8x48x40x40 .f32) (harg5 : arg5.IsWhole)
    (x0 : Vec F S1x8x48x4 .f32) (x1 : Vec F S8x2 .i32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2 x0 x1)) -∗ K ⟨⟩))
      ⊢ wp frame (wpE (defs₀ (F := F)) Variants.none c none) E (cc0__mask_kernel i arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _)]
  unfold out2 pay
  sl_unfold_words
  rfl

/-! ## The pipeline's proof data -/

/-- What fills the part of the coordinate buffer no transfer moves, in the proof data: the zero word. Nothing reads it. -/
def zfill : S1x8x48x4.Idx → Elt F .f32 := fun _ => FloatOps.ofBits .f32 0#32

/-- The coordinate buffer as the proof data names it: the window's block on the rows inside the array, the filler past them. -/
def coordBuf (c : Dev nD) (t : Fin cfg0.N) : S1x8x48x4.Idx → Elt F .f32 :=
  win0_0.fill (grid0.coords t) zfill (iblk m c 0 t)

/-- The proof data of the one pipeline on core c: the arrays as the region finds them; after the body at point t the
    coordinate buffer at its block (filled out), the image-size buffer at its block, the result buffer at the mask
    block computed from those two; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => coordBuf m c t
    | ⟨1, _⟩ => iblk m c 1 t
    | ⟨2, _⟩ => out2 (coordBuf m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = coordBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (coordBuf m c t) (iblk m c 1 t) := by dsimp only [dats]

/-- The coordinate buffer is fetched at every point: it holds its block on the rows inside the array, d past them. -/
theorem before0_0 (c : Dev nD) (t : Fin cfg0.N) (d) :
    (dats m 0 c).before 0 t d = win0_0.fill (grid0.coords t) d (iblk m c 0 t) := by
  unfold Dat.before; rw [if_pos (fetch0_0 t)]; rfl

/-- The image-size buffer holds its block at every point, fetched there or not. -/
theorem before0_1 (c : Dev nD) (t : Fin cfg0.N) (d) : (dats m 0 c).before 1 t d = iblk m c 1 t :=
  before0_1_of m (dats m 0 c) (A_eq m c 1) (after0_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.fill (grid0.coords t) d0 (win0_0.cut (grid0.coords t) ((dats m 0 c).after 0 t))
      = win0_0.fill (grid0.coords t) d0 (iblk m c 0 t) := by
    rw [after0_0]; unfold coordBuf; rw [win0_0.cut_fill]
  have h2 : win0_2.fill (grid0.coords t) (out2 (win0_0.fill (grid0.coords t) d0 (iblk m c 0 t)) (iblk m c 1 t))
        (win0_2.cut (grid0.coords t) ((dats m 0 c).after 2 t))
      = out2 (win0_0.fill (grid0.coords t) d0 (iblk m c 0 t)) (iblk m c 1 t) := by
    rw [after0_2]
    exact win0_2.fill_congr_cut _ (by unfold coordBuf; rw [cut_out2 m c t d0, cut_out2 m c t zfill])
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [h0]; try iexact H0
  isplitl [H1]
  · rw [after0_1]; iexact H1
  · iexists out2 (win0_0.fill (grid0.coords t) d0 (iblk m c 0 t)) (iblk m c 1 t)
    change _ ⊢ owns (c : Thread nD τ) (stage0_2 (cfg0.slots t 2)) fullShare
      (win0_2.fill (grid0.coords t) (out2 (win0_0.fill (grid0.coords t) d0 (iblk m c 0 t)) (iblk m c 1 t))
        (win0_2.cut (grid0.coords t) ((dats m 0 c).after 2 t)))
    rw [h2]; try iexact H2

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array -/

/-- Every point writes back its block of ONE whole-array function, and the blocks cover the array: after the run the
    result array is that function of the arrays the region found. -/
theorem final (c : Dev nD) :
    (dats m 0 c).arrAt 2 cfg0.N = Cert.MaskSpec.maskOf (V m c main_v2) (V m c main_arg2) :=
  (dats m 0 c).arrAt_eq_of_cover 2 (Cert.MaskSpec.maskOf (V m c main_v2) (V m c main_arg2)) (fun t _ => by
    show win0_2.cut (grid0.coords t) ((dats m 0 c).after 2 t) = _
    rw [after0_2]; exact cut_out2 m c t zfill) cover2

/-- The run with the result named: the stacked masks of the two argument coordinate arrays and the image sizes. -/
theorem run_value : θ_run defs (onTc (τ := τ) (main (F := F))) ⟨m, fun _ => 0, ρ⟩ (fun r => ∀ c : Dev nD,
      r.2.mem ((c.tc : Thread nD τ).loc main_v3)
        = Cert.MaskSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 2).trans ((final m c).trans (by
        unfold Cert.MaskSpec.G; rw [V_coords m c, V_main_arg2])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.Kernel.Hand

end
-- ==== Proof.OutIdeal.lean ====
/-
  What the kernel's body leaves in the result window's staging buffer, as a function of what the two input
  windows' staging buffers hold: the one store's payload over the three loads (the whole coordinate block, and
  the width and height columns of the image-size block).
-/
import proofs.«159931_j12352325943704_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- The coordinate block, whole. -/
abbrev rCoord : Rect S1x8x48x4 := Rect.unit (s := S1x8x48x4) ![0, 0, 0, 0] S1x8x48x4.size inb_S1x8x48x4_S1x8x48x4_0_0_0_0
/-- The image widths: column 1 of the image-size block. -/
abbrev rWidth : Rect S8x2 := Rect.unit (s := S8x2) ![0, 1] S8x1.size inb_S8x2_S8x1_0_1
/-- The image heights: column 0 of the image-size block. -/
abbrev rHeight : Rect S8x2 := Rect.unit (s := S8x2) ![0, 0] S8x1.size inb_S8x2_S8x1_0_0
/-- The result block, whole. -/
abbrev rOut : Rect S1x8x48x40x40 := Rect.unit (s := S1x8x48x40x40) ![0, 0, 0, 0, 0] S1x8x48x40x40.size inb_S1x8x48x40x40_S1x8x48x40x40_0_0_0_0_0

/-- The stored value: the mask block computed from the coordinate block x0 and the image-size block x1. -/
def pay (x0 : Vec F S1x8x48x4 .f32) (x1 : Vec F S8x2 .i32) : Vec F S1x8x48x40x40 .f32 :=
  k0_pay1 (k0_pay7 (View.ld x0 rCoord)) (k0_pay9 (View.ld x1 rHeight)) (k0_pay10 (View.ld x0 rCoord) (View.ld x1 rWidth))
    (k0_pay11 (View.ld x0 rCoord) (View.ld x1 rHeight)) (k0_pay12 (View.ld x0 rCoord) (View.ld x1 rWidth))

/-- What the result window's staging buffer holds after the body: the one whole store. -/
def out2 (x0 : Vec F S1x8x48x4 .f32) (x1 : Vec F S8x2 .i32) : Vec F S1x8x48x40x40 .f32 :=
  View.canon [⟨rOut, pay x0 x1⟩]

end Cert.KernelIdeal.Hand

end
-- ==== Proof.PayIdeal.lean ====
/-
  The stored mask block read at an index: entry (0, b, q, h, w) of what the body stores is the mask cell of the
  box in row (0, b, q) of the coordinate block and the image size in row b of the image-size block.
-/
import proofs.«159931_j12352325943704_1_alg».proof.Proof.OutIdeal
import proofs.«159931_j12352325943704_1_alg».proof.Proof.MaskSpec
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type} [FloatOps F]

/-! ## The three loads -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The load through the whole coordinate block reads the block. -/
theorem ld_rCoord (x0 : Vec F S1x8x48x4 .f32) : View.ld x0 rCoord = x0 :=
  View.ld_unit_zero (S := S1x8x48x4) hz4 inb_S1x8x48x4_S1x8x48x4_0_0_0_0 x0

/-- The load of the width column reads column 1 of the image-size block. -/
theorem ld_rWidth (x1 : Vec F S8x2 .i32) (b : Fin 8) :
    View.ld x1 rWidth (ix2 b (0 : Fin 1)) = x1 (ix2 b (1 : Fin 2)) := by
  show x1 _ = x1 _
  congr 1
  funext a
  match a with
  | ⟨0, _⟩ => exact Fin.ext (by show 0 + 1 * b.val = b.val; omega)
  | ⟨1, _⟩ => exact Fin.ext (by show 1 + 1 * 0 = 1; omega)

/-- The load of the height column reads column 0 of the image-size block. -/
theorem ld_rHeight (x1 : Vec F S8x2 .i32) (b : Fin 8) :
    View.ld x1 rHeight (ix2 b (0 : Fin 1)) = x1 (ix2 b (0 : Fin 2)) := by
  show x1 _ = x1 _
  congr 1
  funext a
  match a with
  | ⟨0, _⟩ => exact Fin.ext (by show 0 + 1 * b.val = b.val; omega)
  | ⟨1, _⟩ => exact Fin.ext (by show 0 + 1 * 0 = 0; omega)

/-! ## The layout operations of the body, read at coordinates -/

/-- The coordinate block without its leading unit axis. -/
theorem pay2_apply (v0 : Vec F S1x8x48x4 .f32) (b : Fin 8) (q : Fin 48) (c : Fin 4) :
    k0_pay2 v0 (ix3 b q c) = v0 (ix4 (0 : Fin 1) b q c) :=
  shapeCast_1abc_abc_apply v0 shapeCasts_S1x8x48x4_S8x48x4 b q c

/-- Column o of the coordinate block, as a [8, 48] array. -/
theorem col_apply (v0 : Vec F S1x8x48x4 .f32) (o : Nat) (hs : S8x48x4.Slices ![0, 0, o] S8x48x1)
    (c : Fin 4) (hc : c.val = o) (b : Fin 8) (q : Fin 48) :
    shapeCast S8x48 (extractStridedSlice S8x48x1 ![0, 0, o] (k0_pay2 v0) hs) shapeCasts_S8x48x1_S8x48 (ix2 b q)
      = v0 (ix4 (0 : Fin 1) b q c) := by
  refine (shapeCast_apply _ _ (ix2 b q) (ix3 b q (0 : Fin 1)) ?_).trans ?_
  · rw [Shape.rowMajor_val_three, Shape.rowMajor_val_two]
    show (b.val * 48 + q.val) * 1 + 0 = b.val * 48 + q.val
    omega
  refine (extractStridedSlice_apply _ _ _ _ (ix3 b q c) (fun a => ?_)).trans (pay2_apply v0 b q c)
  match a with
  | ⟨0, _⟩ => show b.val = 0 + b.val; omega
  | ⟨1, _⟩ => show q.val = 0 + q.val; omega
  | ⟨2, _⟩ => show c.val = o + 0; omega

theorem pay3_apply (v0 : Vec F S1x8x48x4 .f32) (b : Fin 8) (q : Fin 48) :
    k0_pay3 v0 (ix2 b q) = v0 (ix4 (0 : Fin 1) b q (0 : Fin 4)) := col_apply v0 0 _ 0 rfl b q
theorem pay4_apply (v0 : Vec F S1x8x48x4 .f32) (b : Fin 8) (q : Fin 48) :
    k0_pay4 v0 (ix2 b q) = v0 (ix4 (0 : Fin 1) b q (1 : Fin 4)) := col_apply v0 1 _ 1 rfl b q
theorem pay5_apply (v0 : Vec F S1x8x48x4 .f32) (b : Fin 8) (q : Fin 48) :
    k0_pay5 v0 (ix2 b q) = v0 (ix4 (0 : Fin 1) b q (2 : Fin 4)) := col_apply v0 2 _ 2 rfl b q
theorem pay6_apply (v0 : Vec F S1x8x48x4 .f32) (b : Fin 8) (q : Fin 48) :
    k0_pay6 v0 (ix2 b q) = v0 (ix4 (0 : Fin 1) b q (3 : Fin 4)) := col_apply v0 3 _ 3 rfl b q

/-- A per-row column [8, 1] broadcast along the queries. -/
theorem bcastRow_apply {α : Type} (v : S8x1.Idx → α) (b : Fin 8) (q : Fin 48) :
    broadcastTo S8x48 v broadcasts_S8x1_S8x48 (ix2 b q) = v (ix2 b (0 : Fin 1)) := by
  refine broadcastTo_apply v _ (ix2 b q) (ix2 b (0 : Fin 1)) fun a => ?_
  match a with
  | ⟨0, _⟩ => rfl
  | ⟨1, _⟩ => rfl

/-- A per-query value [8, 48] broadcast over the 40 x 40 cells. -/
theorem lift_apply {α : Type} (v : S8x48.Idx → α) (b : Fin 8) (q : Fin 48) (h w : Fin 40) :
    broadcastTo S8x48x40x40 (shapeCast S8x48x1x1 v shapeCasts_S8x48_S8x48x1x1) broadcasts_S8x48x1x1_S8x48x40x40 (ix4 b q h w)
      = v (ix2 b q) := by
  refine (broadcastTo_apply _ _ (ix4 b q h w) (ix4 b q (0 : Fin 1) (0 : Fin 1)) fun a => ?_).trans ?_
  · match a with
    | ⟨0, _⟩ => rfl
    | ⟨1, _⟩ => rfl
    | ⟨2, _⟩ => rfl
    | ⟨3, _⟩ => rfl
  refine shapeCast_apply v _ _ _ ?_
  rw [Shape.rowMajor_val_two, Shape.rowMajor_val_four]
  show b.val * 48 + q.val = ((b.val * 48 + q.val) * 1 + 0) * 1 + 0
  omega

/-- The row coordinate of a cell. -/
theorem iotaH_apply (b : Fin 8) (q : Fin 48) (h w : Fin 40) :
    iota .tc S8x48x40x40 32 [2] iota_S8x48x40x40_d2_w32 (ix4 b q h w) = BitVec.ofNat 32 h.val :=
  iota_single_apply _ _ _ _ _ _

/-- The column coordinate of a cell. -/
theorem iotaW_apply (b : Fin 8) (q : Fin 48) (h w : Fin 40) :
    iota .tc S8x48x40x40 32 [3] iota_S8x48x40x40_d3_w32 (ix4 b q h w) = BitVec.ofNat 32 w.val :=
  iota_single_apply _ _ _ _ _ _

/-- The computed masks stored as a block with a leading unit axis. -/
theorem addUnit_apply {α : Type} (v : S8x48x40x40.Idx → α) (u : Fin 1) (b : Fin 8) (q : Fin 48) (h w : Fin 40) :
    shapeCast S1x8x48x40x40 v shapeCasts_S8x48x40x40_S1x8x48x40x40 (ix5 u b q h w) = v (ix4 b q h w) := by
  refine shapeCast_apply v _ _ _ ?_
  rw [Shape.rowMajor_val_four, Shape.rowMajor_val_five]
  have hu : u.val = 0 := by omega
  show ((b.val * 48 + q.val) * 40 + h.val) * 40 + w.val = (((u.val * 8 + b.val) * 48 + q.val) * 40 + h.val) * 40 + w.val
  omega

/-! ## The arithmetic of the body, read at coordinates -/

/-- The centre row plus half the height. -/
theorem pay7_apply (v0 : Vec F S1x8x48x4 .f32) (b : Fin 8) (q : Fin 48) :
    k0_pay7 v0 (ix2 b q)
      = FloatOps.addf (v0 (ix4 (0 : Fin 1) b q (1 : Fin 4)))
          (FloatOps.mulf (FloatOps.ofBits .f32 0x3F000000#32) (v0 (ix4 (0 : Fin 1) b q (3 : Fin 4)))) := by
  show FloatOps.addf (k0_pay4 v0 (ix2 b q)) (FloatOps.mulf (FloatOps.ofBits .f32 0x3F000000#32) (k0_pay6 v0 (ix2 b q))) = _
  rw [pay4_apply, pay6_apply]

/-- The image height as a float. -/
theorem pay9_apply (v24 : Vec F S8x1 .i32) (j : S8x1.Idx) : k0_pay9 v24 j = FloatOps.sitofp .f32 (v24 j) := rfl

/-- The low column edge. -/
theorem pay10_apply (v0 : Vec F S1x8x48x4 .f32) (v22 : Vec F S8x1 .i32) (b : Fin 8) (q : Fin 48) :
    k0_pay10 v0 v22 (ix2 b q)
      = Cert.MaskSpec.lo (v0 (ix4 (0 : Fin 1) b q (0 : Fin 4))) (v0 (ix4 (0 : Fin 1) b q (2 : Fin 4))) (v22 (ix2 b (0 : Fin 1))) := by
  show FloatOps.fptosi 32 (FloatOps.floor (FloatOps.divf
      (FloatOps.mulf (FloatOps.subf (k0_pay3 v0 (ix2 b q)) (FloatOps.mulf (FloatOps.ofBits .f32 0x3F000000#32) (k0_pay5 v0 (ix2 b q))))
        (broadcastTo S8x48 (k0_pay8 v22) broadcasts_S8x1_S8x48 (ix2 b q)))
      (FloatOps.ofBits .f32 0x42000000#32))) = _
  rw [pay3_apply, pay5_apply, bcastRow_apply]
  rfl

/-- The low row edge. -/
theorem pay11_apply (v0 : Vec F S1x8x48x4 .f32) (v24 : Vec F S8x1 .i32) (b : Fin 8) (q : Fin 48) :
    k0_pay11 v0 v24 (ix2 b q)
      = Cert.MaskSpec.lo (v0 (ix4 (0 : Fin 1) b q (1 : Fin 4))) (v0 (ix4 (0 : Fin 1) b q (3 : Fin 4))) (v24 (ix2 b (0 : Fin 1))) := by
  show FloatOps.fptosi 32 (FloatOps.floor (FloatOps.divf
      (FloatOps.mulf (FloatOps.subf (k0_pay4 v0 (ix2 b q)) (FloatOps.mulf (FloatOps.ofBits .f32 0x3F000000#32) (k0_pay6 v0 (ix2 b q))))
        (broadcastTo S8x48 (k0_pay9 v24) broadcasts_S8x1_S8x48 (ix2 b q)))
      (FloatOps.ofBits .f32 0x42000000#32))) = _
  rw [pay4_apply, pay6_apply, bcastRow_apply]
  rfl

/-- The high column edge before the floor: (cx + bw/2) * width / 32. -/
theorem pay12_apply (v0 : Vec F S1x8x48x4 .f32) (v22 : Vec F S8x1 .i32) (b : Fin 8) (q : Fin 48) :
    k0_pay12 v0 v22 (ix2 b q)
      = FloatOps.divf
          (FloatOps.mulf (FloatOps.addf (v0 (ix4 (0 : Fin 1) b q (0 : Fin 4)))
              (FloatOps.mulf (FloatOps.ofBits .f32 0x3F000000#32) (v0 (ix4 (0 : Fin 1) b q (2 : Fin 4)))))
            (FloatOps.sitofp .f32 (v22 (ix2 b (0 : Fin 1)))))
          (FloatOps.ofBits .f32 0x42000000#32) := by
  show FloatOps.divf
      (FloatOps.mulf (FloatOps.addf (k0_pay3 v0 (ix2 b q)) (FloatOps.mulf (FloatOps.ofBits .f32 0x3F000000#32) (k0_pay5 v0 (ix2 b q))))
        (broadcastTo S8x48 (k0_pay8 v22) broadcasts_S8x1_S8x48 (ix2 b q)))
      (FloatOps.ofBits .f32 0x42000000#32) = _
  rw [pay3_apply, pay5_apply, bcastRow_apply]
  rfl

/-- The store's payload over its five operands, at (u, b, q, h, w). -/
theorem pay1_apply (v21 : FVec F S8x48 .f32) (v25 : FVec F S8x1 .f32) (v31 v37 : IVec S8x48 32) (v41 : FVec F S8x48 .f32)
    (u : Fin 1) (b : Fin 8) (q : Fin 48) (h w : Fin 40) :
    k0_pay1 v21 v25 v31 v37 v41 (ix5 u b q h w)
      = FloatOps.sitofp .f32 ((Cert.MaskSpec.outside (v31 (ix2 b q)) (v37 (ix2 b q))
          (IntOp.minsi (FloatOps.fptosi 32 (FloatOps.floor (v41 (ix2 b q)))) 39#32)
          (IntOp.minsi (FloatOps.fptosi 32 (FloatOps.floor (FloatOps.divf
            (FloatOps.mulf (v21 (ix2 b q)) (v25 (ix2 b (0 : Fin 1)))) (FloatOps.ofBits .f32 0x42000000#32)))) 39#32)
          (BitVec.ofNat 32 h.val) (BitVec.ofNat 32 w.val)).setWidth 32) := by
  unfold k0_pay1
  refine (addUnit_apply _ u b q h w).trans ?_
  simp only [sitofp, extui, ori, cmpi]
  rw [lift_apply, lift_apply, lift_apply, lift_apply, iotaH_apply, iotaW_apply, ← bcastRow_apply v25 b q]
  rfl

/-! ## The stored block and the result buffer, read at coordinates -/

/-- The stored block at (0, b, q, h, w). -/
theorem pay_apply (x0 : Vec F S1x8x48x4 .f32) (x1 : Vec F S8x2 .i32) (b : Fin 8) (q : Fin 48) (h w : Fin 40) :
    pay x0 x1 (ix5 (0 : Fin 1) b q h w)
      = Cert.MaskSpec.cell (x0 (ix4 (0 : Fin 1) b q (0 : Fin 4))) (x0 (ix4 (0 : Fin 1) b q (1 : Fin 4)))
          (x0 (ix4 (0 : Fin 1) b q (2 : Fin 4))) (x0 (ix4 (0 : Fin 1) b q (3 : Fin 4)))
          (x1 (ix2 b (0 : Fin 2))) (x1 (ix2 b (1 : Fin 2))) h.val w.val := by
  unfold pay
  rw [ld_rCoord]
  refine (pay1_apply _ _ _ _ _ (0 : Fin 1) b q h w).trans ?_
  rw [pay7_apply, pay9_apply, pay10_apply, pay11_apply, pay12_apply, ld_rWidth, ld_rHeight]
  rfl

/-- The one store covers the result buffer: what the body leaves there is the stored block. -/
theorem out2_eq_pay (x0 : Vec F S1x8x48x4 .f32) (x1 : Vec F S8x2 .i32) : out2 x0 x1 = pay x0 x1 :=
  View.canon_unit_zero (S := S1x8x48x40x40) hz5 inb_S1x8x48x40x40_S1x8x48x40x40_0_0_0_0_0 (pay x0 x1)

/-- The result window's staging buffer after the body, at (0, b, q, h, w). -/
theorem out2_apply (x0 : Vec F S1x8x48x4 .f32) (x1 : Vec F S8x2 .i32) (b : Fin 8) (q : Fin 48) (h w : Fin 40) :
    out2 x0 x1 (ix5 (0 : Fin 1) b q h w)
      = Cert.MaskSpec.cell (x0 (ix4 (0 : Fin 1) b q (0 : Fin 4))) (x0 (ix4 (0 : Fin 1) b q (1 : Fin 4)))
          (x0 (ix4 (0 : Fin 1) b q (2 : Fin 4))) (x0 (ix4 (0 : Fin 1) b q (3 : Fin 4)))
          (x1 (ix2 b (0 : Fin 2))) (x1 (ix2 b (1 : Fin 2))) h.val w.val := by
  rw [out2_eq_pay]
  exact pay_apply x0 x1 b q h w

end Cert.KernelIdeal.Hand

end
-- ==== Proof.BlocksIdeal.lean ====
/-
  From blocks to the whole array.  The grid has 2 x 8 x 7 points; the point numbered t has coordinates
  (t / 56, t / 7 mod 8, t mod 7) and its blocks are rows 8 (t / 7 mod 8) .. + 7 of the batch axis and rows
  48 (t mod 7) .. + 47 of the query axis of slab t / 56.  Since 300 = 6 * 48 + 12, the last block on the query axis
  overhangs the array and only its first 12 rows are moved, by the fetch of the coordinate block and by the write-back
  of the mask block alike.  Three facts: the stacked coordinate array is the two argument arrays, objects at 0 and
  subjects at 1; what a point writes back is its block of the whole-array mask function, whatever the coordinate
  buffer held in the rows no fetch moved; and every entry of the result lies in some point's block.
-/
import proofs.«159931_j12352325943704_1_alg».proof.Proof.PayIdeal
import proofs.«159931_j12352325943704_1_alg».proof.Proof.MaskSpec
import proofs.«159931_j12352325943704_1_alg».proof.Proof.Gen.KernelIdeal.Frame
import proofs.«159931_j12352325943704_1_alg».proof.Proof.Gen.KernelIdeal.Points
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.ShloMosaic.Tactic

variable {F : FTy → Type} [FloatOps F]
variable (m : (ℓ : Loc nD τ sig) → Buf (Elt F) ℓ)

/-! ## The stacked coordinate array -/

/-- The stacked coordinate array the region finds, as the host operations make it: the two argument arrays each given a
    leading unit axis, then joined along that axis. -/
theorem V_coords_e (c : Dev nD) : (Gen.V m c main_v2 : S2x64x300x4.Idx → Elt F .f32) =
    concatenate S2x64x300x4 0
      [⟨S1x64x300x4, broadcastInDim S1x64x300x4 ![1, 2, 3] bcast_S64x300x4_S1x64x300x4_1_2_3 (m ((c : Thread nD τ).loc main_arg0))⟩,
       ⟨S1x64x300x4, broadcastInDim S1x64x300x4 ![1, 2, 3] bcast_S64x300x4_S1x64x300x4_1_2_3 (m ((c : Thread nD τ).loc main_arg1))⟩]
      concatenates_S1x64x300x4_S1x64x300x4_S2x64x300x4_d0 := by
  dsimp only [Gen.V, Gen.hostOps0]
  after_results

/-- An array given a leading unit axis, read at (0, b, q, k), is the array at (b, q, k). -/
theorem lead_apply (x : S64x300x4.Idx → Elt F .f32) (b : Fin 64) (q : Fin 300) (k : Fin 4) :
    broadcastInDim S1x64x300x4 ![1, 2, 3] bcast_S64x300x4_S1x64x300x4_1_2_3 x (ix4 (0 : Fin 1) b q k) = x (ix3 b q k) := by
  refine broadcastInDim_apply _ _ x _ (ix3 b q k) fun a => ?_
  match a with
  | ⟨0, _⟩ => show b.val = if (64 : Nat) = 1 then 0 else b.val; rw [if_neg (by decide)]
  | ⟨1, _⟩ => show q.val = if (300 : Nat) = 1 then 0 else q.val; rw [if_neg (by decide)]
  | ⟨2, _⟩ => show k.val = if (4 : Nat) = 1 then 0 else k.val; rw [if_neg (by decide)]

/-- The stacked coordinate array the region finds: the object boxes at 0, the subject boxes at 1. -/
theorem V_coords (c : Dev nD) : (Gen.V m c main_v2 : S2x64x300x4.Idx → Elt F .f32)
    = Cert.MaskSpec.stack (m ((c : Thread nD τ).loc main_arg0)) (m ((c : Thread nD τ).loc main_arg1)) := by
  rw [V_coords_e]
  funext j
  have hj : (j 0).val < 2 := (j 0).isLt
  unfold Cert.MaskSpec.stack
  split
  · next h0 =>
    refine (concatenate_pair_apply_left (t := S2x64x300x4) (s₁ := S1x64x300x4) (s₂ := S1x64x300x4) (0 : Fin 4) _ _ _ j rfl (ix4 (0 : Fin 1) (j 1) (j 2) (j 3)) fun b => ?_).trans (lead_apply _ _ _ _)
    match b with
    | ⟨0, _⟩ => exact h0.symm
    | ⟨1, _⟩ => rfl
    | ⟨2, _⟩ => rfl
    | ⟨3, _⟩ => rfl
  · next h0 =>
    refine (concatenate_pair_apply_right (t := S2x64x300x4) (s₁ := S1x64x300x4) (s₂ := S1x64x300x4) (0 : Fin 4) _ _ _ j rfl rfl (ix4 (0 : Fin 1) (j 1) (j 2) (j 3)) (fun b hb => ?_) ?_).trans (lead_apply _ _ _ _)
    · match b with
      | ⟨0, _⟩ => exact absurd rfl hb
      | ⟨1, _⟩ => rfl
      | ⟨2, _⟩ => rfl
      | ⟨3, _⟩ => rfl
    · show 0 + 1 = (j 0).val
      omega

/-! ## The index maps and the cuts -/

/-- The printed index maps and cuts, decided over the grid: at the point numbered t the blocks sit at
    (t / 56, t / 7 mod 8, t mod 7); the coordinate window and the result window move together and are cut alike
    (48 rows on axis 2, 12 in the last block), the image-size window follows grid axis 1. -/
theorem idx_facts : ∀ t : Fin cfg0.N,
    (win0_2.index t (0 : Fin 5) = t.val / 56 ∧ win0_2.index t (1 : Fin 5) = t.val / 7 % 8 ∧ win0_2.index t (2 : Fin 5) = t.val % 7
      ∧ win0_2.index t (3 : Fin 5) = 0 ∧ win0_2.index t (4 : Fin 5) = 0)
    ∧ (win0_0.index t (0 : Fin 4) = t.val / 56 ∧ win0_0.index t (1 : Fin 4) = t.val / 7 % 8 ∧ win0_0.index t (2 : Fin 4) = t.val % 7
      ∧ win0_0.index t (3 : Fin 4) = 0)
    ∧ (win0_1.index t (0 : Fin 2) = t.val / 7 % 8 ∧ win0_1.index t (1 : Fin 2) = 0)
    ∧ (win0_2.xsize (grid0.coords t) (0 : Fin 5) = 1 ∧ win0_2.xsize (grid0.coords t) (1 : Fin 5) = 8
      ∧ win0_2.xsize (grid0.coords t) (2 : Fin 5) = (if t.val % 7 < 6 then 48 else 12)
      ∧ win0_2.xsize (grid0.coords t) (3 : Fin 5) = 40 ∧ win0_2.xsize (grid0.coords t) (4 : Fin 5) = 40)
    ∧ (win0_0.xsize (grid0.coords t) (0 : Fin 4) = 1 ∧ win0_0.xsize (grid0.coords t) (1 : Fin 4) = 8
      ∧ win0_0.xsize (grid0.coords t) (2 : Fin 4) = (if t.val % 7 < 6 then 48 else 12)
      ∧ win0_0.xsize (grid0.coords t) (3 : Fin 4) = 4) :=
  (by decide +kernel : ∀ t : Fin grid0.N, _)

/-! ## What a point writes back -/

/-- Where the transfer moves the index, the filled buffer holds the fetched block, whatever filled it before. -/
theorem fill_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- The coordinate buffer after the fetch at point t, at a row (0, b, q) the transfer moves: it holds the stacked array's
    row (t / 56, 8 (t / 7 mod 8) + b, 48 (t mod 7) + q), whatever the buffer held past the array's end. -/
theorem fill0_apply (c : Dev nD) (t : Fin cfg0.N) (d0 : S1x8x48x4.Idx → Elt F .f32) (b : Fin 8) (q : Fin 48) (k : Fin 4)
    (hq : q.val < win0_2.xsize (grid0.coords t) (2 : Fin 5)) (J : S2x64x300x4.Idx)
    (hJ0 : (J 0).val = t.val / 56) (hJ1 : (J 1).val = t.val / 7 % 8 * 8 + b.val) (hJ2 : (J 2).val = t.val % 7 * 48 + q.val)
    (hJ3 : (J 3).val = k.val) :
    win0_0.fill (grid0.coords t) d0 (Gen.iblk m c 0 t) (ix4 (0 : Fin 1) b q k) = Gen.V m c main_v2 J := by
  obtain ⟨⟨e20, e21, e22, e23, e24⟩, ⟨e00, e01, e02, e03⟩, ⟨e10, e11⟩, ⟨x20, x21, x22, x23, x24⟩, ⟨x00, x01, x02, x03⟩⟩ := idx_facts t
  have hm : ∀ a, ((ix4 (0 : Fin 1) b q k : S1x8x48x4.Idx) a).val < win0_0.xsize (grid0.coords t) a := fun a => by
    match a with
    | ⟨0, _⟩ => show 0 < win0_0.xsize (grid0.coords t) (0 : Fin 4); omega
    | ⟨1, _⟩ => show b.val < win0_0.xsize (grid0.coords t) (1 : Fin 4); omega
    | ⟨2, _⟩ => show q.val < win0_0.xsize (grid0.coords t) (2 : Fin 4); omega
    | ⟨3, _⟩ => show k.val < win0_0.xsize (grid0.coords t) (3 : Fin 4); omega
  refine (fill_of_lt win0_0 (grid0.coords t) d0 (Gen.iblk m c 0 t) _ hm).trans ?_
  show Gen.V m c main_v2 ((win0_0.rect t).emb _) = _
  refine congrArg (Gen.V m c main_v2 : S2x64x300x4.Idx → Elt F .f32) (funext fun a => Fin.ext ?_)
  match a with
  | ⟨0, _⟩ => show win0_0.index t (0 : Fin 4) * 1 + 1 * 0 = (J 0).val; omega
  | ⟨1, _⟩ => show win0_0.index t (1 : Fin 4) * 8 + 1 * b.val = (J 1).val; omega
  | ⟨2, _⟩ => show win0_0.index t (2 : Fin 4) * 48 + 1 * q.val = (J 2).val; omega
  | ⟨3, _⟩ => show win0_0.index t (3 : Fin 4) * 4 + 1 * k.val = (J 3).val; omega

/-- The image-size block at point t, at (b, k): the image-size array's entry (8 (t / 7 mod 8) + b, k). -/
theorem blk1_apply (c : Dev nD) (t : Fin cfg0.N) (b : Fin 8) (k : Fin 2) (J : S64x2.Idx)
    (hJ0 : (J 0).val = t.val / 7 % 8 * 8 + b.val) (hJ1 : (J 1).val = k.val) :
    Gen.iblk m c 1 t (ix2 b k) = Gen.V m c main_arg2 J := by
  obtain ⟨-, -, ⟨e10, e11⟩, -, -⟩ := idx_facts t
  show Gen.V m c main_arg2 ((win0_1.rect t).emb _) = _
  refine congrArg (Gen.V m c main_arg2 : S64x2.Idx → Elt F .i32) (funext fun a => Fin.ext ?_)
  match a with
  | ⟨0, _⟩ => show win0_1.index t (0 : Fin 2) * 8 + 1 * b.val = (J 0).val; omega
  | ⟨1, _⟩ => show win0_1.index t (1 : Fin 2) * 2 + 1 * k.val = (J 1).val; omega

/-- WHAT POINT t WRITES BACK is block t of the whole-array mask function of the arrays as the region finds them,
    whatever filled the coordinate buffer past the array's end: the rows the write-back moves are rows the fetch moved. -/
theorem cut_out2 (c : Dev nD) (t : Fin cfg0.N) (d0 : S1x8x48x4.Idx → Elt F .f32) :
    win0_2.cut (grid0.coords t) (out2 (win0_0.fill (grid0.coords t) d0 (Gen.iblk m c 0 t)) (Gen.iblk m c 1 t))
      = (win0_2.blk t).view.read (Elt F) (Cert.MaskSpec.maskOf (Gen.V m c main_v2) (Gen.V m c main_arg2)) := by
  obtain ⟨⟨e20, e21, e22, e23, e24⟩, ⟨e00, e01, e02, e03⟩, ⟨e10, e11⟩, ⟨x20, x21, x22, x23, x24⟩, ⟨x00, x01, x02, x03⟩⟩ := idx_facts t
  funext y
  have h0 : (y 0).val < win0_2.xsize (grid0.coords t) (0 : Fin 5) := (y 0).isLt
  have h1 : (y 1).val < win0_2.xsize (grid0.coords t) (1 : Fin 5) := (y 1).isLt
  have h2 : (y 2).val < win0_2.xsize (grid0.coords t) (2 : Fin 5) := (y 2).isLt
  have h3 : (y 3).val < win0_2.xsize (grid0.coords t) (3 : Fin 5) := (y 3).isLt
  have h4 : (y 4).val < win0_2.xsize (grid0.coords t) (4 : Fin 5) := (y 4).isLt
  have h2' : (y 2).val < 48 := by rw [x22] at h2; split at h2 <;> omega
  have hx : win0_2.xinj (grid0.coords t) y
      = ix5 (0 : Fin 1) (⟨(y 1).val, by omega⟩ : Fin 8) (⟨(y 2).val, h2'⟩ : Fin 48) (⟨(y 3).val, by omega⟩ : Fin 40) (⟨(y 4).val, by omega⟩ : Fin 40) := by
    funext a; apply Fin.ext
    match a with
    | ⟨0, _⟩ => show (y 0).val = 0; omega
    | ⟨1, _⟩ => rfl
    | ⟨2, _⟩ => rfl
    | ⟨3, _⟩ => rfl
    | ⟨4, _⟩ => rfl
  show out2 _ _ (win0_2.xinj (grid0.coords t) y) = Cert.MaskSpec.maskOf _ _ ((win0_2.rect t).emb y)
  rw [hx, out2_apply]
  have j0 : ((win0_2.rect t).emb y (0 : Fin 5)).val = t.val / 56 := by
    show win0_2.index t (0 : Fin 5) * 1 + 1 * (y 0).val = _; omega
  have j1 : ((win0_2.rect t).emb y (1 : Fin 5)).val = t.val / 7 % 8 * 8 + (y 1).val := by
    show win0_2.index t (1 : Fin 5) * 8 + 1 * (y 1).val = _; omega
  have j2 : ((win0_2.rect t).emb y (2 : Fin 5)).val = t.val % 7 * 48 + (y 2).val := by
    show win0_2.index t (2 : Fin 5) * 48 + 1 * (y 2).val = _; omega
  have j3 : ((win0_2.rect t).emb y (3 : Fin 5)).val = (y 3).val := by
    show win0_2.index t (3 : Fin 5) * 40 + 1 * (y 3).val = _; omega
  have j4 : ((win0_2.rect t).emb y (4 : Fin 5)).val = (y 4).val := by
    show win0_2.index t (4 : Fin 5) * 40 + 1 * (y 4).val = _; omega
  unfold Cert.MaskSpec.maskOf
  rw [fill0_apply m c t d0 _ _ (0 : Fin 4) h2 (ix4 ((win0_2.rect t).emb y 0) ((win0_2.rect t).emb y 1) ((win0_2.rect t).emb y 2) 0) j0 j1 j2 rfl,
    fill0_apply m c t d0 _ _ (1 : Fin 4) h2 (ix4 ((win0_2.rect t).emb y 0) ((win0_2.rect t).emb y 1) ((win0_2.rect t).emb y 2) 1) j0 j1 j2 rfl,
    fill0_apply m c t d0 _ _ (2 : Fin 4) h2 (ix4 ((win0_2.rect t).emb y 0) ((win0_2.rect t).emb y 1) ((win0_2.rect t).emb y 2) 2) j0 j1 j2 rfl,
    fill0_apply m c t d0 _ _ (3 : Fin 4) h2 (ix4 ((win0_2.rect t).emb y 0) ((win0_2.rect t).emb y 1) ((win0_2.rect t).emb y 2) 3) j0 j1 j2 rfl,
    blk1_apply m c t _ (0 : Fin 2) (ix2 ((win0_2.rect t).emb y 1) 0) j1 rfl,
    blk1_apply m c t _ (1 : Fin 2) (ix2 ((win0_2.rect t).emb y 1) 1) j1 rfl]
  show Cert.MaskSpec.cell _ _ _ _ _ _ (y 3).val (y 4).val = Cert.MaskSpec.cell _ _ _ _ _ _ ((win0_2.rect t).emb y 3).val ((win0_2.rect t).emb y 4).val
  rw [j3, j4]

/-! ## The blocks cover the result -/

/-- Every entry of the result lies in the block of a point, and every point writes back: entry (r, b, q, h, w) is in
    the block of the point (r, b / 8, q / 48), whose rows on axis 2 are 48 (q / 48) .. 48 (q / 48) + 47, cut at 300
    in the last block. -/
theorem cover2 (i : S2x64x300x40x40.Idx) : ∃ t : Fin cfg0.N, (cfg0.win 2).flush t = true ∧ i ∈ ((cfg0.win 2).blk t).view.set := by
  have i0 : (i 0).val < 2 := (i 0).isLt
  have i1 : (i 1).val < 64 := (i 1).isLt
  have i2 : (i 2).val < 300 := (i 2).isLt
  have i3 : (i 3).val < 40 := (i 3).isLt
  have i4 : (i 4).val < 40 := (i 4).isLt
  have hN : grid0.N = 112 := Gen.N_0
  obtain ⟨t, ht⟩ : ∃ t : Fin cfg0.N, t.val = (i 0).val * 56 + (i 1).val / 8 * 7 + (i 2).val / 48 :=
    ⟨⟨(i 0).val * 56 + (i 1).val / 8 * 7 + (i 2).val / 48, by show _ < grid0.N; omega⟩, rfl⟩
  refine ⟨t, Gen.flush0_2 t, ?_⟩
  obtain ⟨⟨e20, e21, e22, e23, e24⟩, -, -, ⟨x20, x21, x22, x23, x24⟩, -⟩ := idx_facts t
  show i ∈ ((View.whole main_v3).slice (win0_2.rect t)).set
  rw [View.set_slice_whole, Rect.mem_set_unit]
  intro a
  match a with
  | ⟨0, _⟩ =>
    show win0_2.index t (0 : Fin 5) * 1 ≤ (i 0).val ∧ (i 0).val < win0_2.index t (0 : Fin 5) * 1 + win0_2.xsize (grid0.coords t) (0 : Fin 5)
    omega
  | ⟨1, _⟩ =>
    show win0_2.index t (1 : Fin 5) * 8 ≤ (i 1).val ∧ (i 1).val < win0_2.index t (1 : Fin 5) * 8 + win0_2.xsize (grid0.coords t) (1 : Fin 5)
    omega
  | ⟨2, _⟩ =>
    show win0_2.index t (2 : Fin 5) * 48 ≤ (i 2).val ∧ (i 2).val < win0_2.index t (2 : Fin 5) * 48 + win0_2.xsize (grid0.coords t) (2 : Fin 5)
    rw [x22]
    split <;> omega
  | ⟨3, _⟩ =>
    show win0_2.index t (3 : Fin 5) * 40 ≤ (i 3).val ∧ (i 3).val < win0_2.index t (3 : Fin 5) * 40 + win0_2.xsize (grid0.coords t) (3 : Fin 5)
    omega
  | ⟨4, _⟩ =>
    show win0_2.index t (4 : Fin 5) * 40 ≤ (i 4).val ∧ (i 4).val < win0_2.index t (4 : Fin 5) * 40 + win0_2.xsize (grid0.coords t) (4 : Fin 5)
    omega

end Cert.KernelIdeal.Hand

end
-- ==== Proof.BodyIdeal.lean ====
/-
  The frame of the idealized kernel: the body's triple, the proof data of its one pipeline, the body obligation
  and the run.  Windows 0 (the stacked coordinates) and 2 (the result) overhang their arrays on the query axis
  at the last of the seven blocks: there the fetch fills only the first twelve of the buffer's 48 query rows
  with the array's rows and leaves the rest at words nothing names, the body computes a mask from those rows too,
  and the write-back takes only the first twelve rows of the result block.  The proof data states what each
  buffer holds on the rows the transfers move, which is all the obligation of such a window asks.
-/
import proofs.«159931_j12352325943704_1_alg».proof.Proof.Gen.KernelIdeal.Frame
import proofs.«159931_j12352325943704_1_alg».proof.Proof.Gen.KernelIdeal.Skeleton
import proofs.«159931_j12352325943704_1_alg».proof.Proof.OutIdeal
import proofs.«159931_j12352325943704_1_alg».proof.Proof.MaskSpec
import proofs.«159931_j12352325943704_1_alg».proof.Proof.BlocksIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

theorem hzOut : (![0, 0, 0, 0, 0] : Fin 5 → Nat) = fun _ => 0 := funext fun a => by fin_cases a <;> rfl

/-- The one store covers the result block. -/
theorem cover_out (p0 : Vec F S1x8x48x40x40 .f32) (y : S1x8x48x40x40.Idx) :
    ∃ pc ∈ ([⟨rOut, p0⟩] : List (View.Piece (Elt F) S1x8x48x40x40 .f32)), y ∈ pc.1.set :=
  ⟨_, List.mem_singleton_self _, View.mem_set_unit_zero hzOut inb_S1x8x48x40x40_S1x8x48x40x40_0_0_0_0_0 y⟩

set_option maxHeartbeats 1000000 in
/-- The body on whole staging memrefs, the inputs' at contents x0 and x1 and the result's at anything, runs to the
    continuation holding the inputs' as they were and the result's at out2 x0 x1. -/
theorem sound_kernel (c : Dev nD) (E : Set ℕ) (i : grid0.Coords)
    (arg3 : Memref sig .tc .vmem S1x8x48x4 .f32) (harg3 : arg3.IsWhole) (arg4 : Memref sig .tc .vmem S8x2 .i32) (harg4 : arg4.IsWhole)
    (arg5 : Memref sig .tc .vmem S1x8x48x40x40 .f32) (harg5 : arg5.IsWhole)
    (x0 : Vec F S1x8x48x4 .f32) (x1 : Vec F S8x2 .i32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2 x0 x1)) -∗ K ⟨⟩))
      ⊢ wp frame (wpE (defs₀ (F := F)) Variants.none c none) E (cc0__mask_kernel i arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _)]
  unfold out2 pay
  sl_unfold_words
  rfl

/-! ## The pipeline's proof data -/

/-- What fills the part of the coordinate buffer no transfer moves, in the proof data: the zero word. Nothing reads it. -/
def zfill : S1x8x48x4.Idx → Elt F .f32 := fun _ => FloatOps.ofBits .f32 0#32

/-- The coordinate buffer as the proof data names it: the window's block on the rows inside the array, the filler past them. -/
def coordBuf (c : Dev nD) (t : Fin cfg0.N) : S1x8x48x4.Idx → Elt F .f32 :=
  win0_0.fill (grid0.coords t) zfill (iblk m c 0 t)

/-- The proof data of the one pipeline on core c: the arrays as the region finds them; after the body at point t the
    coordinate buffer at its block (filled out), the image-size buffer at its block, the result buffer at the mask
    block computed from those two; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => coordBuf m c t
    | ⟨1, _⟩ => iblk m c 1 t
    | ⟨2, _⟩ => out2 (coordBuf m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = coordBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (coordBuf m c t) (iblk m c 1 t) := by dsimp only [dats]

/-- The coordinate buffer is fetched at every point: it holds its block on the rows inside the array, d past them. -/
theorem before0_0 (c : Dev nD) (t : Fin cfg0.N) (d) :
    (dats m 0 c).before 0 t d = win0_0.fill (grid0.coords t) d (iblk m c 0 t) := by
  unfold Dat.before; rw [if_pos (fetch0_0 t)]; rfl

/-- The image-size buffer holds its block at every point, fetched there or not. -/
theorem before0_1 (c : Dev nD) (t : Fin cfg0.N) (d) : (dats m 0 c).before 1 t d = iblk m c 1 t :=
  before0_1_of m (dats m 0 c) (A_eq m c 1) (after0_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.fill (grid0.coords t) d0 (win0_0.cut (grid0.coords t) ((dats m 0 c).after 0 t))
      = win0_0.fill (grid0.coords t) d0 (iblk m c 0 t) := by
    rw [after0_0]; unfold coordBuf; rw [win0_0.cut_fill]
  have h2 : win0_2.fill (grid0.coords t) (out2 (win0_0.fill (grid0.coords t) d0 (iblk m c 0 t)) (iblk m c 1 t))
        (win0_2.cut (grid0.coords t) ((dats m 0 c).after 2 t))
      = out2 (win0_0.fill (grid0.coords t) d0 (iblk m c 0 t)) (iblk m c 1 t) := by
    rw [after0_2]
    exact win0_2.fill_congr_cut _ (by unfold coordBuf; rw [cut_out2 m c t d0, cut_out2 m c t zfill])
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [h0]; try iexact H0
  isplitl [H1]
  · rw [after0_1]; iexact H1
  · iexists out2 (win0_0.fill (grid0.coords t) d0 (iblk m c 0 t)) (iblk m c 1 t)
    change _ ⊢ owns (c : Thread nD τ) (stage0_2 (cfg0.slots t 2)) fullShare
      (win0_2.fill (grid0.coords t) (out2 (win0_0.fill (grid0.coords t) d0 (iblk m c 0 t)) (iblk m c 1 t))
        (win0_2.cut (grid0.coords t) ((dats m 0 c).after 2 t)))
    rw [h2]; try iexact H2

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array -/

/-- Every point writes back its block of ONE whole-array function, and the blocks cover the array: after the run the
    result array is that function of the arrays the region found. -/
theorem final (c : Dev nD) :
    (dats m 0 c).arrAt 2 cfg0.N = Cert.MaskSpec.maskOf (V m c main_v2) (V m c main_arg2) :=
  (dats m 0 c).arrAt_eq_of_cover 2 (Cert.MaskSpec.maskOf (V m c main_v2) (V m c main_arg2)) (fun t _ => by
    show win0_2.cut (grid0.coords t) ((dats m 0 c).after 2 t) = _
    rw [after0_2]; exact cut_out2 m c t zfill) cover2

/-- The run with the result named: the stacked masks of the two argument coordinate arrays and the image sizes. -/
theorem run_value : θ_run defs (onTc (τ := τ) (main (F := F))) ⟨m, fun _ => 0, ρ⟩ (fun r => ∀ c : Dev nD,
      r.2.mem ((c.tc : Thread nD τ).loc main_v3)
        = Cert.MaskSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 2).trans ((final m c).trans (by
        unfold Cert.MaskSpec.G; rw [V_coords m c, V_main_arg2])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.Hand

end
-- ==== Proof.RefValue.lean ====
/-
  The reference program's result, at the extended reals, is the specified mask array.

  The reference computes, for each of the two coordinate arrays, the four box edges as [64,300] integer arrays,
  broadcasts them against the row and column numbers of the 40 x 40 feature map, compares, and joins the four
  comparisons with "or"; the two [1,64,300,40,40] results are concatenated along the leading axis.  Read at an index
  (r, b, q, h, w) every layout operation names one index of its operand, every arithmetic operation acts on the
  elements there, and what is left is the scalar mask bit of the specification.
-/
import proofs.«159931_j12352325943704_1_alg».proof.Proof.Gen.ReferenceIdeal.Run
import proofs.«159931_j12352325943704_1_alg».proof.Proof.MaskSpec
import Idealize.ShloMosaic.Lib.ValueIdx
import Idealize.ShloMosaic.Lib.ValueLayout
import Idealize.ShloMosaic.Lib.Pipeline.Value
import Idealize.ShloMosaic.PureOps.Ideal

noncomputable section

namespace Cert.ReferenceIdeal.RefValue

open Cert.ReferenceIdeal Cert.ReferenceIdeal.Gen Cert.ReferenceIdeal.Value Idealize.ShloMosaic Idealize.ShloMosaic.ValueIdx Idealize.ShloMosaic.StableHlo

/-! ## The layout operations of one half, read at an index -/

/-- Column c of a [64,300,4] array, sliced out and reshaped to [64,300], read at (b, q): the array at (b, q, c). -/
theorem col_apply {α : Type} (A : S64x300x4.Idx → α) (c : Nat) (hc : c < 4) (hs : S64x300x4.Slices ![0, 0, c] S64x300x1)
    (hr : S64x300x1.ShapeCasts S64x300) (b : Fin 64) (q : Fin 300) :
    shapeCast S64x300 (extractStridedSlice S64x300x1 ![0, 0, c] A hs) hr (ix2 b q) = A (ix3 b q ⟨c, hc⟩) := by
  refine (shapeCast_apply _ _ (ix2 b q) (ix3 b q (⟨0, Nat.one_pos⟩ : Fin 1)) ?_).trans ?_
  · rw [Shape.rowMajor_val_three, Shape.rowMajor_val_two]
    show (b.val * 300 + q.val) * 1 + 0 = b.val * 300 + q.val
    omega
  · refine extractStridedSlice_apply _ _ _ _ _ (fun a => ?_)
    match a with
    | ⟨0, _⟩ => show b.val = 0 + b.val; omega
    | ⟨1, _⟩ => show q.val = 0 + q.val; omega
    | ⟨2, _⟩ => show c = c + 0; omega

/-- Column c of the [64,2] size array, sliced out as [64,1], read at (b, 0): the array at (b, c). -/
theorem size_apply {α : Type} (img : S64x2.Idx → α) (c : Nat) (hc : c < 2) (hs : S64x2.Slices ![0, c] S64x1)
    (b : Fin 64) :
    extractStridedSlice S64x1 ![0, c] img hs (ix2 b (⟨0, Nat.one_pos⟩ : Fin 1)) = img (ix2 b ⟨c, hc⟩) := by
  refine extractStridedSlice_apply _ _ _ _ _ (fun a => ?_)
  match a with
  | ⟨0, _⟩ => show b.val = 0 + b.val; omega
  | ⟨1, _⟩ => show c = c + 0; omega

/-- A scalar broadcast to [64,300] reads the scalar everywhere. -/
theorem splat_apply {α : Type} (x : S_.Idx → α) (h : S_.BroadcastsInDim S64x300 (![] : Fin 0 → Fin S64x300.rank))
    (j : S64x300.Idx) : broadcastInDim S64x300 ![] h x j = x ix0 :=
  broadcastInDim_apply _ h x j ix0 (fun a => a.elim0)

/-- A [64,1] array broadcast along the queries reads its row b at (b, q). -/
theorem perRow_apply {α : Type} (x : S64x1.Idx → α) (h : S64x1.BroadcastsInDim S64x300 (![0, 1] : Fin 2 → Fin S64x300.rank))
    (b : Fin 64) (q : Fin 300) :
    broadcastInDim S64x300 ![0, 1] h x (ix2 b q) = x (ix2 b (⟨0, Nat.one_pos⟩ : Fin 1)) :=
  broadcastInDim_apply _ h x (ix2 b q) (ix2 b (⟨0, Nat.one_pos⟩ : Fin 1)) (fun a => by
    match a with
    | ⟨0, _⟩ => rfl
    | ⟨1, _⟩ => rfl)

/-! ## The box edges as [64,300] arrays -/

/-- The low edges: floor ((c - wd/2) * s / 32), as the reference computes them over [64,300] from a centre column c,
    an extent column wd and a [64,1] column s of image sizes. -/
def loArr (c wd : S64x300.Idx → Ideal .f32) (s : S64x1.Idx → BitVec 32) : S64x300.Idx → BitVec 32 :=
  fptosi 32 (Host.floor (Host.divf (mulf (subf c (mulf (broadcastInDim S64x300 ![] bcast_S_S64x300 (constant S_ .f32 0x3F000000#32)) wd)) (broadcastInDim S64x300 ![0, 1] bcast_S64x1_S64x300_0_1 (sitofp .f32 s))) (broadcastInDim S64x300 ![] bcast_S_S64x300 (constant S_ .f32 0x42000000#32))))

/-- The high edges: min (floor ((c + wd/2) * s / 32)) 39. -/
def hiArr (c wd : S64x300.Idx → Ideal .f32) (s : S64x1.Idx → BitVec 32) : S64x300.Idx → BitVec 32 :=
  minsi (fptosi 32 (Host.floor (Host.divf (mulf (addf c (mulf (broadcastInDim S64x300 ![] bcast_S_S64x300 (constant S_ .f32 0x3F000000#32)) wd)) (broadcastInDim S64x300 ![0, 1] bcast_S64x1_S64x300_0_1 (sitofp .f32 s))) (broadcastInDim S64x300 ![] bcast_S_S64x300 (constant S_ .f32 0x42000000#32))))) (broadcastInDim S64x300 ![] bcast_S_S64x300 (constantI S_ 32 39#32))

/-- The low edge array at (b, q) is the scalar low edge of that query's centre and extent and that row's size. -/
theorem loArr_apply (c wd : S64x300.Idx → Ideal .f32) (s : S64x1.Idx → BitVec 32) (b : Fin 64) (q : Fin 300) :
    loArr c wd s (ix2 b q) = MaskSpec.lo (c (ix2 b q)) (wd (ix2 b q)) (s (ix2 b (⟨0, Nat.one_pos⟩ : Fin 1))) := by
  show FloatOps.fptosi 32 (FloatOps.hostUnary .floor (FloatOps.hostDivf
      (FloatOps.mulf (FloatOps.subf (c (ix2 b q))
        (FloatOps.mulf (broadcastInDim S64x300 ![] bcast_S_S64x300 (constant (F := Ideal) S_ .f32 0x3F000000#32) (ix2 b q)) (wd (ix2 b q))))
        (broadcastInDim S64x300 ![0, 1] bcast_S64x1_S64x300_0_1 (sitofp (F := Ideal) .f32 s) (ix2 b q)))
      (broadcastInDim S64x300 ![] bcast_S_S64x300 (constant (F := Ideal) S_ .f32 0x42000000#32) (ix2 b q)))) = _
  rw [splat_apply, splat_apply, perRow_apply]
  rfl

/-- The high edge array at (b, q) is the scalar high edge. -/
theorem hiArr_apply (c wd : S64x300.Idx → Ideal .f32) (s : S64x1.Idx → BitVec 32) (b : Fin 64) (q : Fin 300) :
    hiArr c wd s (ix2 b q) = MaskSpec.hi (c (ix2 b q)) (wd (ix2 b q)) (s (ix2 b (⟨0, Nat.one_pos⟩ : Fin 1))) := by
  show IntOp.minsi (FloatOps.fptosi 32 (FloatOps.hostUnary .floor (FloatOps.hostDivf
      (FloatOps.mulf (FloatOps.addf (c (ix2 b q))
        (FloatOps.mulf (broadcastInDim S64x300 ![] bcast_S_S64x300 (constant (F := Ideal) S_ .f32 0x3F000000#32) (ix2 b q)) (wd (ix2 b q))))
        (broadcastInDim S64x300 ![0, 1] bcast_S64x1_S64x300_0_1 (sitofp (F := Ideal) .f32 s) (ix2 b q)))
      (broadcastInDim S64x300 ![] bcast_S_S64x300 (constant (F := Ideal) S_ .f32 0x42000000#32) (ix2 b q)))))
      (broadcastInDim S64x300 ![] bcast_S_S64x300 (constantI S_ 32 39#32) (ix2 b q)) = _
  rw [splat_apply, splat_apply, splat_apply, perRow_apply]
  rfl

/-! ## Row and column numbers, and the edges spread over the feature map -/

/-- The row numbers 0 … 39 as a [64,300,40,1] array. -/
def rowsArr : S64x300x40x1.Idx → BitVec 32 :=
  broadcastInDim S64x300x40x1 ![0, 1, 2, 3] bcast_S1x1x40x1_S64x300x40x1_0_1_2_3 (broadcastInDim S1x1x40x1 ![2, 3] bcast_S40x1_S1x1x40x1_2_3 (broadcastInDim S40x1 ![0] bcast_S40_S40x1_0 (iotaInDim S40 32 0)))

/-- The column numbers 0 … 39 as a [64,300,1,40] array. -/
def colsArr : S64x300x1x40.Idx → BitVec 32 :=
  broadcastInDim S64x300x1x40 ![0, 1, 2, 3] bcast_S1x1x1x40_S64x300x1x40_0_1_2_3 (broadcastInDim S1x1x1x40 ![2, 3] bcast_S1x40_S1x1x1x40_2_3 (broadcastInDim S1x40 ![1] bcast_S40_S1x40_1 (iotaInDim S40 32 0)))

/-- A [64,300] array of edges spread along the rows. -/
def edgeRow (e : S64x300.Idx → BitVec 32) : S64x300x40x1.Idx → BitVec 32 :=
  broadcastInDim S64x300x40x1 ![0, 1, 2, 3] bcast_S64x300x1x1_S64x300x40x1_0_1_2_3 (broadcastInDim S64x300x1x1 ![0, 1] bcast_S64x300_S64x300x1x1_0_1 e)

/-- A [64,300] array of edges spread along the columns. -/
def edgeCol (e : S64x300.Idx → BitVec 32) : S64x300x1x40.Idx → BitVec 32 :=
  broadcastInDim S64x300x1x40 ![0, 1, 2, 3] bcast_S64x300x1x1_S64x300x1x40_0_1_2_3 (broadcastInDim S64x300x1x1 ![0, 1] bcast_S64x300_S64x300x1x1_0_1 e)

/-- The row-number array at (b, q, h, 0) is h. -/
theorem rowsArr_apply (b : Fin 64) (q : Fin 300) (h : Fin 40) :
    rowsArr (ix4 b q h (⟨0, Nat.one_pos⟩ : Fin 1)) = BitVec.ofNat 32 h.val := by
  unfold rowsArr
  refine (broadcastInDim_apply _ _ _ _ (ix4 (⟨0, Nat.one_pos⟩ : Fin 1) (⟨0, Nat.one_pos⟩ : Fin 1) h (⟨0, Nat.one_pos⟩ : Fin 1)) (fun a => by
    match a with
    | ⟨0, _⟩ => rfl
    | ⟨1, _⟩ => rfl
    | ⟨2, _⟩ => rfl
    | ⟨3, _⟩ => rfl)).trans ?_
  refine (broadcastInDim_apply _ _ _ _ (ix2 h (⟨0, Nat.one_pos⟩ : Fin 1)) (fun a => by
    match a with
    | ⟨0, _⟩ => rfl
    | ⟨1, _⟩ => rfl)).trans ?_
  refine (broadcastInDim_apply _ _ _ _ (ix1 h) (fun a => by
    match a with
    | ⟨0, _⟩ => rfl)).trans ?_
  rfl

/-- The column-number array at (b, q, 0, w) is w. -/
theorem colsArr_apply (b : Fin 64) (q : Fin 300) (w : Fin 40) :
    colsArr (ix4 b q (⟨0, Nat.one_pos⟩ : Fin 1) w) = BitVec.ofNat 32 w.val := by
  unfold colsArr
  refine (broadcastInDim_apply _ _ _ _ (ix4 (⟨0, Nat.one_pos⟩ : Fin 1) (⟨0, Nat.one_pos⟩ : Fin 1) (⟨0, Nat.one_pos⟩ : Fin 1) w) (fun a => by
    match a with
    | ⟨0, _⟩ => rfl
    | ⟨1, _⟩ => rfl
    | ⟨2, _⟩ => rfl
    | ⟨3, _⟩ => rfl)).trans ?_
  refine (broadcastInDim_apply _ _ _ _ (ix2 (⟨0, Nat.one_pos⟩ : Fin 1) w) (fun a => by
    match a with
    | ⟨0, _⟩ => rfl
    | ⟨1, _⟩ => rfl)).trans ?_
  refine (broadcastInDim_apply _ _ _ _ (ix1 w) (fun a => by
    match a with
    | ⟨0, _⟩ => rfl)).trans ?_
  rfl

/-- Edges spread along the rows, at (b, q, h, 0): the edge of (b, q). -/
theorem edgeRow_apply (e : S64x300.Idx → BitVec 32) (b : Fin 64) (q : Fin 300) (h : Fin 40) :
    edgeRow e (ix4 b q h (⟨0, Nat.one_pos⟩ : Fin 1)) = e (ix2 b q) := by
  unfold edgeRow
  refine (broadcastInDim_apply _ _ _ _ (ix4 b q (⟨0, Nat.one_pos⟩ : Fin 1) (⟨0, Nat.one_pos⟩ : Fin 1)) (fun a => by
    match a with
    | ⟨0, _⟩ => rfl
    | ⟨1, _⟩ => rfl
    | ⟨2, _⟩ => rfl
    | ⟨3, _⟩ => rfl)).trans ?_
  exact broadcastInDim_apply _ _ _ _ (ix2 b q) (fun a => by
    match a with
    | ⟨0, _⟩ => rfl
    | ⟨1, _⟩ => rfl)

/-- Edges spread along the columns, at (b, q, 0, w): the edge of (b, q). -/
theorem edgeCol_apply (e : S64x300.Idx → BitVec 32) (b : Fin 64) (q : Fin 300) (w : Fin 40) :
    edgeCol e (ix4 b q (⟨0, Nat.one_pos⟩ : Fin 1) w) = e (ix2 b q) := by
  unfold edgeCol
  refine (broadcastInDim_apply _ _ _ _ (ix4 b q (⟨0, Nat.one_pos⟩ : Fin 1) (⟨0, Nat.one_pos⟩ : Fin 1)) (fun a => by
    match a with
    | ⟨0, _⟩ => rfl
    | ⟨1, _⟩ => rfl
    | ⟨2, _⟩ => rfl
    | ⟨3, _⟩ => rfl)).trans ?_
  exact broadcastInDim_apply _ _ _ _ (ix2 b q) (fun a => by
    match a with
    | ⟨0, _⟩ => rfl
    | ⟨1, _⟩ => rfl)

/-- A [64,300,40,1] array spread over the columns reads (b, q, h, 0) at (b, q, h, w). -/
theorem overCols_apply {α : Type} (x : S64x300x40x1.Idx → α)
    (hb : S64x300x40x1.BroadcastsInDim S64x300x40x40 (![0, 1, 2, 3] : Fin 4 → Fin S64x300x40x40.rank))
    (b : Fin 64) (q : Fin 300) (h w : Fin 40) :
    broadcastInDim S64x300x40x40 ![0, 1, 2, 3] hb x (ix4 b q h w) = x (ix4 b q h (⟨0, Nat.one_pos⟩ : Fin 1)) :=
  broadcastInDim_apply _ hb x _ _ (fun a => by
    match a with
    | ⟨0, _⟩ => rfl
    | ⟨1, _⟩ => rfl
    | ⟨2, _⟩ => rfl
    | ⟨3, _⟩ => rfl)

/-- A [64,300,1,40] array spread over the rows reads (b, q, 0, w) at (b, q, h, w). -/
theorem overRows_apply {α : Type} (x : S64x300x1x40.Idx → α)
    (hb : S64x300x1x40.BroadcastsInDim S64x300x40x40 (![0, 1, 2, 3] : Fin 4 → Fin S64x300x40x40.rank))
    (b : Fin 64) (q : Fin 300) (h w : Fin 40) :
    broadcastInDim S64x300x40x40 ![0, 1, 2, 3] hb x (ix4 b q h w) = x (ix4 b q (⟨0, Nat.one_pos⟩ : Fin 1) w) :=
  broadcastInDim_apply _ hb x _ _ (fun a => by
    match a with
    | ⟨0, _⟩ => rfl
    | ⟨1, _⟩ => rfl
    | ⟨2, _⟩ => rfl
    | ⟨3, _⟩ => rfl)

/-- A [64,300,40,40] array given a leading unit axis reads (b, q, h, w) at (0, b, q, h, w). -/
theorem lead_apply {α : Type} (x : S64x300x40x40.Idx → α)
    (hb : S64x300x40x40.BroadcastsInDim S1x64x300x40x40 (![1, 2, 3, 4] : Fin 4 → Fin S1x64x300x40x40.rank))
    (b : Fin 64) (q : Fin 300) (h w : Fin 40) :
    broadcastInDim S1x64x300x40x40 ![1, 2, 3, 4] hb x (ix5 (⟨0, Nat.one_pos⟩ : Fin 1) b q h w) = x (ix4 b q h w) :=
  broadcastInDim_apply _ hb x _ _ (fun a => by
    match a with
    | ⟨0, _⟩ => rfl
    | ⟨1, _⟩ => rfl
    | ⟨2, _⟩ => rfl
    | ⟨3, _⟩ => rfl)

/-! ## One half: the mask bits of one coordinate array -/

/-- The centre-x column of a coordinate array, as [64,300]. -/
def col0 (A : S64x300x4.Idx → Ideal .f32) : S64x300.Idx → Ideal .f32 :=
  shapeCast S64x300 (extractStridedSlice S64x300x1 ![0, 0, 0] A slices_S64x300x4_S64x300x1_0_0_0) shapeCasts_S64x300x1_S64x300
/-- The centre-y column. -/
def col1 (A : S64x300x4.Idx → Ideal .f32) : S64x300.Idx → Ideal .f32 :=
  shapeCast S64x300 (extractStridedSlice S64x300x1 ![0, 0, 1] A slices_S64x300x4_S64x300x1_0_0_1) shapeCasts_S64x300x1_S64x300
/-- The width column. -/
def col2 (A : S64x300x4.Idx → Ideal .f32) : S64x300.Idx → Ideal .f32 :=
  shapeCast S64x300 (extractStridedSlice S64x300x1 ![0, 0, 2] A slices_S64x300x4_S64x300x1_0_0_2) shapeCasts_S64x300x1_S64x300
/-- The height column. -/
def col3 (A : S64x300x4.Idx → Ideal .f32) : S64x300.Idx → Ideal .f32 :=
  shapeCast S64x300 (extractStridedSlice S64x300x1 ![0, 0, 3] A slices_S64x300x4_S64x300x1_0_0_3) shapeCasts_S64x300x1_S64x300
/-- The image heights, as [64,1]. -/
def szH (img : S64x2.Idx → BitVec 32) : S64x1.Idx → BitVec 32 :=
  extractStridedSlice S64x1 ![0, 0] img slices_S64x2_S64x1_0_0
/-- The image widths, as [64,1]. -/
def szW (img : S64x2.Idx → BitVec 32) : S64x1.Idx → BitVec 32 :=
  extractStridedSlice S64x1 ![0, 1] img slices_S64x2_S64x1_0_1

/-- The mask bits of one coordinate array as the reference computes them: a cell is outside the box when its row is
    below the low row edge or above the high one, or its column is left of the low column edge or right of the high one. -/
def half (A : S64x300x4.Idx → Ideal .f32) (img : S64x2.Idx → BitVec 32) : S1x64x300x40x40.Idx → BitVec 1 :=
  broadcastInDim S1x64x300x40x40 ![1, 2, 3, 4] bcast_S64x300x40x40_S1x64x300x40x40_1_2_3_4
    (ori (ori (broadcastInDim S64x300x40x40 ![0, 1, 2, 3] bcast_S64x300x40x1_S64x300x40x40_0_1_2_3
        (ori (cmpi .slt rowsArr (edgeRow (loArr (col1 A) (col3 A) (szH img))))
          (cmpi .sgt rowsArr (edgeRow (hiArr (col1 A) (col3 A) (szH img))))))
      (broadcastInDim S64x300x40x40 ![0, 1, 2, 3] bcast_S64x300x1x40_S64x300x40x40_0_1_2_3
        (cmpi .slt colsArr (edgeCol (loArr (col0 A) (col2 A) (szW img))))))
    (broadcastInDim S64x300x40x40 ![0, 1, 2, 3] bcast_S64x300x1x40_S64x300x40x40_0_1_2_3
      (cmpi .sgt colsArr (edgeCol (hiArr (col0 A) (col2 A) (szW img))))))

/-- An elementwise "or" at an index joins the elements. -/
theorem ori_at {s : Shape} {n : Nat} (x y : IVec s n) (i : s.Idx) : ori x y i = IntOp.ori (x i) (y i) := rfl
/-- An elementwise integer comparison at an index compares the elements. -/
theorem cmpi_at {s : Shape} {n : Nat} (p : CmpIPredicate) (x y : IVec s n) (i : s.Idx) :
    cmpi p x y i = IntOp.cmpi p (x i) (y i) := rfl

/-- One half at (0, b, q, h, w) is the specification's mask bit of query (b, q) at cell (h, w). -/
theorem half_apply (A : S64x300x4.Idx → Ideal .f32) (img : S64x2.Idx → BitVec 32)
    (b : Fin 64) (q : Fin 300) (h w : Fin 40) :
    half A img (ix5 (⟨0, Nat.one_pos⟩ : Fin 1) b q h w)
      = MaskSpec.bit (A (ix3 b q (⟨0, by omega⟩ : Fin 4))) (A (ix3 b q (⟨1, by omega⟩ : Fin 4)))
          (A (ix3 b q (⟨2, by omega⟩ : Fin 4))) (A (ix3 b q (⟨3, by omega⟩ : Fin 4)))
          (img (ix2 b (⟨0, by omega⟩ : Fin 2))) (img (ix2 b (⟨1, by omega⟩ : Fin 2))) h.val w.val := by
  unfold half MaskSpec.bit MaskSpec.outside
  rw [lead_apply, ori_at, ori_at, overCols_apply, overRows_apply, overRows_apply, ori_at,
    cmpi_at, cmpi_at, cmpi_at, cmpi_at,
    rowsArr_apply, colsArr_apply, edgeRow_apply, edgeRow_apply, edgeCol_apply, edgeCol_apply,
    loArr_apply, hiArr_apply, loArr_apply, hiArr_apply]
  unfold col0 col1 col2 col3 szH szW
  rw [col_apply A 0 (by omega) _ _ b q, col_apply A 1 (by omega) _ _ b q, col_apply A 2 (by omega) _ _ b q,
    col_apply A 3 (by omega) _ _ b q, size_apply img 0 (by omega) _ b, size_apply img 1 (by omega) _ b]

/-! ## The reference's result -/

/-- The reference's result is the two halves, objects first, concatenated along the leading axis. -/
theorem res_eq_halves (V0 : Valuation τ sig (Elt Ideal)) :
    res_main_v166 V0 = concatenate S2x64x300x40x40 0
      [⟨S1x64x300x40x40, half (V0 (Proc.devRef .tc main_arg0)) (V0 (Proc.devRef .tc main_arg2))⟩,
       ⟨S1x64x300x40x40, half (V0 (Proc.devRef .tc main_arg1)) (V0 (Proc.devRef .tc main_arg2))⟩]
      concatenates_S1x64x300x40x40_S1x64x300x40x40_S2x64x300x40x40_d0 := rfl

/-- THE REFERENCE'S VALUE: its result, converted to floats, is the specified stacked mask of the object and subject
    boxes. -/
theorem ref_eq (V0 : Valuation τ sig (Elt Ideal)) :
    (uitofp .f32 (res_main_v166 V0) : (⟨5, ![2, 64, 300, 40, 40]⟩ : Shape).Idx → Ideal .f32)
      = MaskSpec.G (F := Ideal) (V0 (Proc.devRef .tc main_arg0)) (V0 (Proc.devRef .tc main_arg1))
          (V0 (Proc.devRef .tc main_arg2)) := by
  funext j
  obtain ⟨r, b, q, h, w, rfl⟩ : ∃ (r : Fin 2) (b : Fin 64) (q : Fin 300) (h w : Fin 40), j = ix5 r b q h w :=
    ⟨_, _, _, _, _, eq_ix5 j⟩
  unfold MaskSpec.G MaskSpec.maskOf
  rw [MaskSpec.cell_eq_uitofp, res_eq_halves]
  refine congrArg (FloatOps.uitofp .f32) ?_
  match r with
  | ⟨0, h0⟩ =>
    -- the objects' half
    refine (concatenate_pair_apply_left (s₁ := S1x64x300x40x40) (s₂ := S1x64x300x40x40) 0 _ _ _ (ix5 (⟨0, h0⟩ : Fin 2) b q h w) rfl (ix5 (⟨0, Nat.one_pos⟩ : Fin 1) b q h w) (fun a => by
      match a with
      | ⟨0, _⟩ => rfl
      | ⟨1, _⟩ => rfl
      | ⟨2, _⟩ => rfl
      | ⟨3, _⟩ => rfl
      | ⟨4, _⟩ => rfl)).trans ?_
    rw [half_apply]
    rfl
  | ⟨1, h1⟩ =>
    -- the subjects' half
    refine (concatenate_pair_apply_right (s₁ := S1x64x300x40x40) (s₂ := S1x64x300x40x40) 0 _ _ _ (ix5 (⟨1, h1⟩ : Fin 2) b q h w) rfl rfl (ix5 (⟨0, Nat.one_pos⟩ : Fin 1) b q h w) (fun a ha => by
      match a with
      | ⟨0, _⟩ => exact absurd rfl ha
      | ⟨1, _⟩ => rfl
      | ⟨2, _⟩ => rfl
      | ⟨3, _⟩ => rfl
      | ⟨4, _⟩ => rfl) rfl).trans ?_
    rw [half_apply]
    rfl

end Cert.ReferenceIdeal.RefValue

end
-- ==== Proof.lean ====
/-
  The certificate of the per-query outside-the-box mask kernel against its array-level reference.

  Both programs compute, for each of two coordinate arrays (objects, subjects), each batch row b, each query q and
  each cell (h, w) of the 40 x 40 feature map, whether the cell lies outside the query's box: the box (cx, cy, bw, bh)
  is scaled by the image's width and height, divided by 32 and floored to integer edges, the high edges clamped to 39,
  and the cell is outside when h is below the low or above the high row edge or w is left of the low or right of the
  high column edge.  The kernel does this block by block over a grid of 2 x 8 x 7 points (8 batch rows and 48 queries
  a block, the seventh query block reaching past the 300 queries and cut there), the reference on whole arrays with
  broadcasts.  At every index the two are the same scalar expression of the same argument entries, so no algebraic
  law and no finiteness is needed: the claim is proved by reading each side at an index.

  The three frames: the kernel as printed and the idealized kernel run their pipeline to the end (body triple, proof
  data stated on the rows the cut transfers move, the library's frame run); the reference is a straight line of host
  operations.  The idealization rewrote nothing, so its conjunct is trivial.
-/
import proofs.«159931_j12352325943704_1_alg».proof.Defs
import proofs.«159931_j12352325943704_1_alg».proof.Proof.Gen.Kernel
import proofs.«159931_j12352325943704_1_alg».proof.Proof.Gen.Kernel.Skeleton
import proofs.«159931_j12352325943704_1_alg».proof.Proof.Gen.Kernel.Launch
import proofs.«159931_j12352325943704_1_alg».proof.Proof.Gen.Kernel.Points
import proofs.«159931_j12352325943704_1_alg».proof.Proof.Gen.Kernel.Frame
import proofs.«159931_j12352325943704_1_alg».proof.Proof.Gen.KernelIdeal
import proofs.«159931_j12352325943704_1_alg».proof.Proof.Gen.KernelIdeal.Skeleton
import proofs.«159931_j12352325943704_1_alg».proof.Proof.Gen.KernelIdeal.Launch
import proofs.«159931_j12352325943704_1_alg».proof.Proof.Gen.KernelIdeal.Points
import proofs.«159931_j12352325943704_1_alg».proof.Proof.Gen.KernelIdeal.Frame
import proofs.«159931_j12352325943704_1_alg».proof.Proof.Gen.ReferenceIdeal
import proofs.«159931_j12352325943704_1_alg».proof.Proof.Gen.Pre_finite_inputs
import proofs.«159931_j12352325943704_1_alg».proof.Proof.Gen.ReferenceIdeal.Run
import proofs.«159931_j12352325943704_1_alg».proof.Proof.BodyBits
import proofs.«159931_j12352325943704_1_alg».proof.Proof.BodyIdeal
import proofs.«159931_j12352325943704_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_p : @Cert.frame_Kernel Cert.Kernel.Gen.facts Cert.Pre_finite_inputs.Gen.facts :=
  fun m ρ _ => Cert.Kernel.Hand.frame m ρ

/-- So does the idealized kernel. -/
theorem frame_pi : @Cert.frame_KernelIdeal Cert.KernelIdeal.Gen.facts Cert.Pre_finite_inputs.Gen.facts :=
  fun m ρ _ => Cert.KernelIdeal.Hand.frame m ρ

/-- The reference is a straight line of host operations: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the stacked masks of the same arguments: the kernel's blocks cover the array with blocks
    of one whole-array function, and the reference's composed term read at an index is the same cell. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [← (hagree c).1, ← (hagree c).2.1, ← (hagree c).2.2.1]
  exact Cert.ReferenceIdeal.RefValue.ref_eq _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
